-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S32x512 : Shape := ⟨2, ![32, 512]⟩
abbrev S512x32 : Shape := ⟨2, ![512, 32]⟩
abbrev S512 : Shape := ⟨1, ![512]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x56x56 .f32) (main_arg1 : FVec F S32x512 .f32) (main_arg2 : FVec F S512x32 .f32) (main_arg3 : FVec F S512 .f32) (main_arg4 : FVec F S512 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S32x512x56x56 : Shape := ⟨4, ![32, 512, 56, 56]⟩
abbrev S32x512 : Shape := ⟨2, ![32, 512]⟩
abbrev S512x32 : Shape := ⟨2, ![512, 32]⟩
abbrev S512 : Shape := ⟨1, ![512]⟩
abbrev S32x512x3136 : Shape := ⟨3, ![32, 512, 3136]⟩
abbrev S32x32x3136 : Shape := ⟨3, ![32, 32, 3136]⟩
abbrev S32x32 : Shape := ⟨2, ![32, 32]⟩
abbrev S_ : Shape := ⟨0, ![]⟩
abbrev S1x512 : Shape := ⟨2, ![1, 512]⟩
abbrev S32x256 : Shape := ⟨2, ![32, 256]⟩

abbrev nBuf : Space → Nat
  | .hbm => 63
  | .vmem => 6
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S512x32, .f32⟩
  | .hbm, ⟨3, _⟩ => ⟨S512, .f32⟩
  | .hbm, ⟨4, _⟩ => ⟨S512, .f32⟩
  | .hbm, ⟨5, _⟩ => ⟨S32x512x3136, .f32⟩
  | .hbm, ⟨6, _⟩ => ⟨S512x32, .f32⟩
  | .hbm, ⟨7, _⟩ => ⟨S512x32, .f32⟩
  | .hbm, ⟨8, _⟩ => ⟨S32x512, .f32⟩
  | .hbm, ⟨9, _⟩ => ⟨S_, .f32⟩
  | .hbm, ⟨10, _⟩ => ⟨S32x512, .f32⟩
  | .hbm, ⟨11, _⟩ => ⟨S32x512, .f32⟩
  | .hbm, ⟨12, _⟩ => ⟨S32x512, .f32⟩
  | .hbm, ⟨13, _⟩ => ⟨S_, .f32⟩
  | .hbm, ⟨14, _⟩ => ⟨S32x512, .f32⟩
  | .hbm, ⟨15, _⟩ => ⟨S32x512, .f32⟩
  | .hbm, ⟨16, _⟩ => ⟨S512x32, .f32⟩
  | .hbm, ⟨17, _⟩ => ⟨S32x32, .f32⟩
  | .hbm, ⟨18, _⟩ => ⟨S_, .f32⟩
  | .hbm, ⟨19, _⟩ => ⟨S32x32, .f32⟩
  | .hbm, ⟨20, _⟩ => ⟨S32x32, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S_, .f32⟩
  | .hbm, ⟨26, _⟩ => ⟨S32x512, .f32⟩
  | .hbm, ⟨27, _⟩ => ⟨S32x512, .f32⟩
  | .hbm, ⟨28, _⟩ => ⟨S_, .f32⟩
  | .hbm, ⟨29, _⟩ => ⟨S32x512, .f32⟩
  | .hbm, ⟨30, _⟩ => ⟨S32x512, .f32⟩
  | .hbm, ⟨31, _⟩ => ⟨S32x512, .f32⟩
  | .hbm, ⟨32, _⟩ => ⟨S_, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S32x512, .f32⟩
  | .hbm, ⟨38, _⟩ => ⟨S32x512, .f32⟩
  | .hbm, ⟨39, _⟩ => ⟨S_, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S512, .f32⟩
  | .hbm, ⟨51, _⟩ => ⟨S1x512, .f32⟩
  | .hbm, ⟨52, _⟩ => ⟨S1x512, .f32⟩
  | .hbm, ⟨53, _⟩ => ⟨S32x512, .f32⟩
  | .hbm, ⟨54, _⟩ => ⟨S32x512, .f32⟩
  | .hbm, ⟨55, _⟩ => ⟨S32x512, .f32⟩
  | .hbm, ⟨56, _⟩ => ⟨S32x512, .f32⟩
  | .hbm, ⟨57, _⟩ => ⟨S1x512, .f32⟩
  | .hbm, ⟨58, _⟩ => ⟨S32x512, .f32⟩
  | .hbm, ⟨59, _⟩ => ⟨S32x512, .f32⟩
  | .hbm, ⟨60, _⟩ => ⟨S32x256, .f32⟩
  | .hbm, ⟨61, _⟩ => ⟨S32x256, .f32⟩
  | .hbm, ⟨62, _⟩ => ⟨S32x256, .f32⟩
  | .local _ .vmem, ⟨0, _⟩ => ⟨S32x32x3136, .f32⟩
  | .local _ .vmem, ⟨1, _⟩ => ⟨S32x32x3136, .f32⟩
  | .local _ .vmem, ⟨2, _⟩ => ⟨S32x32, .f32⟩
  | .local _ .vmem, ⟨3, _⟩ => ⟨S32x32, .f32⟩
  | .local _ .vmem, ⟨4, _⟩ => ⟨S32x32, .f32⟩
  | .local _ .vmem, ⟨5, _⟩ => ⟨S32x32, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x56x56_S32x512x3136 : S32x512x56x56.ShapeCasts S32x512x3136
  inb_S32x32x3136_S32x32x3136_0_0_0 : ∀ a, (![0, 0, 0] : Fin 3 → Nat) a + S32x32x3136.size a ≤ S32x32x3136.size a
  h_S32x32x3136 : 0 < S32x32x3136.numel
  shapeCasts_S32x32x3136_S32x32x3136 : S32x32x3136.ShapeCasts S32x32x3136
  reduces_S32x32x3136_S32x32 : S32x32x3136.Reduces [2] S32x32
  transposes_S32x32_p1_0_S32x32 : S32x32.Transposes [1, 0] S32x32
  inb_S32x32_S32x32_0_0 : ∀ a, (![0, 0] : Fin 2 → Nat) a + S32x32.size a ≤ S32x32.size a
  h_S32x32 : 0 < S32x32.numel
  transposes_S512x32_S32x512_1_0 : S512x32.Transposes [1, 0] S32x512
  bcast_S_S32x512 : S_.BroadcastsInDim S32x512 (![] : Fin 0 → Fin S32x512.rank)
  transposes_S32x512_S512x32_1_0 : S32x512.Transposes [1, 0] S512x32
  bcast_S_S32x32 : S_.BroadcastsInDim S32x32 (![] : Fin 0 → Fin S32x32.rank)
  reducesTo_S32x512_S512_d0 : S32x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  slices_S32x512_S32x256_0_0 : S32x512.Slices ![0, 0] S32x256
  slices_S32x512_S32x256_0_256 : S32x512.Slices ![0, 256] S32x256
  dot_S32x512_S512x32_S32x32_1_0_0_1_n_n_wf : DotDims.WF S32x512 S512x32 S32x32 [1] [0] [0] [1] [] []
  dot_S32x32_S32x512_S32x512_1_0_0_1_n_n_wf : DotDims.WF S32x32 S32x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x3136.size a ≤ S32x512x3136.size a
  hwx0_0 : ∀ i : grid0.Coords, EltTy.bits .f32 = 32 ∨ (Rect.block (s := S32x512x3136) S32x32x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S512x32.size a
  hwx0_1 : ∀ i : grid0.Coords, EltTy.bits .f32 = 32 ∨ (Rect.block (s := S512x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S512x32.size a
  hwx0_2 : ∀ i : grid0.Coords, EltTy.bits .f32 = 32 ∨ (Rect.block (s := S512x32) S32x32.size (cc0_transform_2 i) (hinb0_2 i)).WholeWords (EltTy.packing .f32)

variable [Facts₀]

def dot_S32x512_S512x32_S32x32_1_0_0_1_n_n : DotDims S32x512 S512x32 S32x32 where
  lhsContracting := [1]
  rhsContracting := [0]
  lhsNonContracting := [0]
  rhsNonContracting := [1]
  lhsBatch := []
  rhsBatch := []
  wf := dot_S32x512_S512x32_S32x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

abbrev win0_0 : Pipeline.Window sig grid0 :=
  Pipeline.Window.ofSpec (Memref.whole main_v0) S32x32x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S32x32.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x56x56 : Shape := ⟨4, ![32, 512, 56, 56]⟩
abbrev S32x512 : Shape := ⟨2, ![32, 512]⟩
abbrev S512x32 : Shape := ⟨2, ![512, 32]⟩
abbrev S512 : Shape := ⟨1, ![512]⟩
abbrev S_ : Shape := ⟨0, ![]⟩
abbrev S32x32 : Shape := ⟨2, ![32, 32]⟩
abbrev S32x512x1x1 : Shape := ⟨4, ![32, 512, 1, 1]⟩
abbrev S1x512x1x1 : Shape := ⟨4, ![1, 512, 1, 1]⟩
abbrev S32x2x256x56x56 : Shape := ⟨5, ![32, 2, 256, 56, 56]⟩
abbrev S32x2x256 : Shape := ⟨3, ![32, 2, 256]⟩
abbrev S32x256 : Shape := ⟨2, ![32, 256]⟩

abbrev nBuf : Space → Nat
  | .hbm => 79
  | .vmem => 0
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S512x32, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S32x512, .f32⟩
  | .hbm, ⟨7, _⟩ => ⟨S_, .f32⟩
  | .hbm, ⟨8, _⟩ => ⟨S32x512, .f32⟩
  | .hbm, ⟨9, _⟩ => ⟨S32x512, .f32⟩
  | .hbm, ⟨10, _⟩ => ⟨S512x32, .f32⟩
  | .hbm, ⟨11, _⟩ => ⟨S32x32, .f32⟩
  | .hbm, ⟨12, _⟩ => ⟨S_, .f32⟩
  | .hbm, ⟨13, _⟩ => ⟨S32x32, .f32⟩
  | .hbm, ⟨14, _⟩ => ⟨S32x32, .f32⟩
  | .hbm, ⟨15, _⟩ => ⟨S32x512, .f32⟩
  | .hbm, ⟨16, _⟩ => ⟨S32x512, .f32⟩
  | .hbm, ⟨17, _⟩ => ⟨S32x512, .f32⟩
  | .hbm, ⟨18, _⟩ => ⟨S32x512, .f32⟩
  | .hbm, ⟨19, _⟩ => ⟨S_, .f32⟩
  | .hbm, ⟨20, _⟩ => ⟨S32x512, .f32⟩
  | .hbm, ⟨21, _⟩ => ⟨S32x512, .f32⟩
  | .hbm, ⟨22, _⟩ => ⟨S_, .f32⟩
  | .hbm, ⟨23, _⟩ => ⟨S32x512, .f32⟩
  | .hbm, ⟨24, _⟩ => ⟨S32x512, .f32⟩
  | .hbm, ⟨25, _⟩ => ⟨S32x512x1x1, .f32⟩
  | .hbm, ⟨26, _⟩ => ⟨S32x512x56x56, .f32⟩
  | .hbm, ⟨27, _⟩ => ⟨S32x512x56x56, .f32⟩
  | .hbm, ⟨28, _⟩ => ⟨S_, .f32⟩
  | .hbm, ⟨29, _⟩ => ⟨S512, .f32⟩
  | .hbm, ⟨30, _⟩ => ⟨S_, .f32⟩
  | .hbm, ⟨31, _⟩ => ⟨S512, .f32⟩
  | .hbm, ⟨32, _⟩ => ⟨S512, .f32⟩
  | .hbm, ⟨33, _⟩ => ⟨S_, .i32⟩
  | .hbm, ⟨34, _⟩ => ⟨S_, .f32⟩
  | .hbm, ⟨35, _⟩ => ⟨S512, .f32⟩
  | .hbm, ⟨36, _⟩ => ⟨S1x512x1x1, .f32⟩
  | .hbm, ⟨37, _⟩ => ⟨S_, .f32⟩
  | .hbm, ⟨38, _⟩ => ⟨S1x512x1x1, .f32⟩
  | .hbm, ⟨39, _⟩ => ⟨S1x512x1x1, .f32⟩
  | .hbm, ⟨40, _⟩ => ⟨S32x512x56x56, .f32⟩
  | .hbm, ⟨41, _⟩ => ⟨S32x512x56x56, .f32⟩
  | .hbm, ⟨42, _⟩ => ⟨S32x512x56x56, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S1x512x1x1, .f32⟩
  | .hbm, ⟨57, _⟩ => ⟨S32x512x56x56, .f32⟩
  | .hbm, ⟨58, _⟩ => ⟨S32x512x56x56, .f32⟩
  | .hbm, ⟨59, _⟩ => ⟨S1x512x1x1, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S512, .f32⟩
  | .hbm, ⟨64, _⟩ => ⟨S1x512x1x1, .f32⟩
  | .hbm, ⟨65, _⟩ => ⟨S1x512x1x1, .f32⟩
  | .hbm, ⟨66, _⟩ => ⟨S32x512x56x56, .f32⟩
  | .hbm, ⟨67, _⟩ => ⟨S32x512x56x56, .f32⟩
  | .hbm, ⟨68, _⟩ => ⟨S1x512x1x1, .f32⟩
  | .hbm, ⟨69, _⟩ => ⟨S32x512x56x56, .f32⟩
  | .hbm, ⟨70, _⟩ => ⟨S32x512x56x56, .f32⟩
  | .hbm, ⟨71, _⟩ => ⟨S32x2x256x56x56, .f32⟩
  | .hbm, ⟨72, _⟩ => ⟨S_, .f32⟩
  | .hbm, ⟨73, _⟩ => ⟨S32x2x256, .f32⟩
  | .hbm, ⟨74, _⟩ => ⟨S_, .f32⟩
  | .hbm, ⟨75, _⟩ => ⟨S32x2x256, .f32⟩
  | .hbm, ⟨76, _⟩ => ⟨S32x2x256, .f32⟩
  | .hbm, ⟨77, _⟩ => ⟨S_, .f32⟩
  | .hbm, ⟨78, _⟩ => ⟨S32x256, .f32⟩
  | _, _ => ⟨S32x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_cst_1 : Ref sig .tc := ⟨.hbm, 44, rfl⟩
abbrev main_call1_v8 : Ref sig .tc := ⟨.hbm, 45, rfl⟩
abbrev main_call1_cst_2 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_cst_3 : Ref sig .tc := ⟨.hbm, 50, rfl⟩
abbrev main_call1_v12 : Ref sig .tc := ⟨.hbm, 51, rfl⟩
abbrev main_call1_cst_4 : Ref sig .tc := ⟨.hbm, 52, rfl⟩
abbrev main_call1_call0_v0 : Ref sig .tc := ⟨.hbm, 53, rfl⟩
abbrev main_call1_call0_v1 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_6 : Ref sig .tc := ⟨.hbm, 72, rfl⟩
abbrev main_v36 : Ref sig .tc := ⟨.hbm, 73, rfl⟩
abbrev main_cst_7 : Ref sig .tc := ⟨.hbm, 74, rfl⟩
abbrev main_v37 : Ref sig .tc := ⟨.hbm, 75, rfl⟩
abbrev main_v38 : Ref sig .tc := ⟨.hbm, 76, rfl⟩
abbrev main_cst_8 : Ref sig .tc := ⟨.hbm, 77, rfl⟩
abbrev main_v39 : Ref sig .tc := ⟨.hbm, 78, rfl⟩

abbrev nD : Nat := 1
abbrev τ : Topo := Topo.v7x

variable {F : FTy → Type} [FloatOps F]

class Facts₀ : Prop where
  reducesTo_S32x512x56x56_S32x512_d2_3 : S32x512x56x56.ReducesTo [2, 3] S32x512
  h_S_ : 0 < S_.numel
  bcast_S_S32x512 : S_.BroadcastsInDim S32x512 (![] : Fin 0 → Fin S32x512.rank)
  transposes_S32x512_S512x32_1_0 : S32x512.Transposes [1, 0] S512x32
  bcast_S_S32x32 : S_.BroadcastsInDim S32x32 (![] : Fin 0 → Fin S32x32.rank)
  transposes_S512x32_S32x512_1_0 : S512x32.Transposes [1, 0] S32x512
  bcast_S32x512_S32x512x1x1_0_1 : S32x512.BroadcastsInDim S32x512x1x1 (![0, 1] : Fin 2 → Fin S32x512x1x1.rank)
  bcast_S32x512x1x1_S32x512x56x56_0_1_2_3 : S32x512x1x1.BroadcastsInDim S32x512x56x56 (![0, 1, 2, 3] : Fin 4 → Fin S32x512x56x56.rank)
  reducesTo_S32x512x56x56_S512_d0_2_3 : S32x512x56x56.ReducesTo [0, 2, 3] S512
  bcast_S_S512 : S_.BroadcastsInDim S512 (![] : Fin 0 → Fin S512.rank)
  bcast_S512_S1x512x1x1_1 : S512.BroadcastsInDim S1x512x1x1 (![1] : Fin 1 → Fin S1x512x1x1.rank)
  bcast_S_S1x512x1x1 : S_.BroadcastsInDim S1x512x1x1 (![] : Fin 0 → Fin S1x512x1x1.rank)
  bcast_S1x512x1x1_S32x512x56x56_0_1_2_3 : S1x512x1x1.BroadcastsInDim S32x512x56x56 (![0, 1, 2, 3] : Fin 4 → Fin S32x512x56x56.rank)
  shapeCasts_S32x512x56x56_S32x2x256x56x56 : S32x512x56x56.ShapeCasts S32x2x256x56x56
  reducesTo_S32x2x256x56x56_S32x2x256_d3_4 : S32x2x256x56x56.ReducesTo [3, 4] S32x2x256
  bcast_S_S32x2x256 : S_.BroadcastsInDim S32x2x256 (![] : Fin 0 → Fin S32x2x256.rank)
  reducesTo_S32x2x256_S32x256_d1 : S32x2x256.ReducesTo [1] S32x256
  dot_S32x512_S512x32_S32x32_1_0_0_1_n_n_wf : DotDims.WF S32x512 S512x32 S32x32 [1] [0] [0] [1] [] []
  dot_S32x32_S32x512_S32x512_1_0_0_1_n_n_wf : DotDims.WF S32x32 S32x512 S32x512 [1] [0] [0] [1] [] []

variable [Facts₀]

def dot_S32x512_S512x32_S32x32_1_0_0_1_n_n : DotDims S32x512 S512x32 S32x32 where
  lhsContracting := [1]
  rhsContracting := [0]
  lhsNonContracting := [0]
  rhsNonContracting := [1]
  lhsBatch := []
  rhsBatch := []
  wf := dot_S32x512_S512x32_S32x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

class Facts : Prop extends Facts₀ where

variable [Facts]
-- ==== Proof.KerTerm.lean ====
/-
  THE KERNEL PROGRAM'S HOST ARITHMETIC, named in stages. The region leaves two tables [512, 32]: each channel's sum of x
  and of x² over its pixels, per image, channel-major. What follows the region is plain tensor arithmetic:
  `kS` turns such a table back to [32, 512] and divides by the pixel count (a spatial mean); `kGate` is the gate (two small
  products with a rectifier between them, then the logistic function 1 / (1 + e^(-z))); `kPost` is everything after the gate:
  the gated means e·s, their batch mean and the batch mean of e²·q, the variance as their difference of squares, the
  normalisation, and the sum of the lower and the upper channel half. `kTail` composes them.
-/
import proofs.«161294_j12670153523753_1_alg».proof.Proof.Gen.KernelIdeal

noncomputable section

namespace Cert.KernelIdeal.KerVal

open Cert.KernelIdeal Cert.KernelIdeal.Gen Idealize.ShloMosaic

variable {F : FTy → Type} [FloatOps F]

/-- A channel-major table of sums, turned image-major and divided by the pixel count 3136. -/
def kS (A : FVec F S512x32 .f32) : FVec F S32x512 .f32 :=
  Host.divf (transpose S32x512 [1, 0] A transposes_S512x32_S32x512_1_0)
    (broadcastInDim S32x512 ![] bcast_S_S32x512 (constant S_ .f32 0x45440000#32))

/-- The gate from the spatial means: (s · w1ᵀ) rectified, times w2ᵀ, through the logistic function. -/
def kGate (s : FVec F S32x512 .f32) (w1 : FVec F S32x512 .f32) (w2 : FVec F S512x32 .f32) : FVec F S32x512 .f32 :=
  let v8 := transpose S512x32 [1, 0] w1 transposes_S32x512_S512x32_1_0
  let v9 := Host.dotGeneral dot_S32x512_S512x32_S32x32_1_0_0_1_n_n none s v8
  let v10 := maximumf v9 (broadcastInDim S32x32 ![] bcast_S_S32x32 (constant S_ .f32 0x00000000#32))
  let v11 := transpose S32x512 [1, 0] w2 transposes_S512x32_S32x512_1_0
  let v12 := Host.dotGeneral dot_S32x32_S32x512_S32x512_1_0_0_1_n_n none v10 v11
  let v14 := Host.exp (Host.negf v12)
  let v16 := addf (broadcastInDim S32x512 ![] bcast_S_S32x512 (constant S_ .f32 0x3F800000#32)) v14
  Host.divf (broadcastInDim S32x512 ![] bcast_S_S32x512 (constant S_ .f32 0x3F800000#32)) v16

/-- Everything after the gate, from the spatial means s of x and q of x², the gate e, and the normalisation's weight and bias. -/
def kPost (s q e : FVec F S32x512 .f32) (w3 w4 : FVec F S512 .f32) : FVec F S32x256 .f32 :=
  let v19 := mulf e s
  let v20 := Host.reduceAdd v19 (constant S_ .f32 0x00000000#32) reducesTo_S32x512_S512_d0 h_S_
  let v22 := Host.divf v20 (broadcastInDim S512 ![] bcast_S_S512 (constant S_ .f32 0x42000000#32))
  let v23 := mulf e e
  let v24 := mulf v23 q
  let v25 := Host.reduceAdd v24 (constant S_ .f32 0x00000000#32) reducesTo_S32x512_S512_d0 h_S_
  let v27 := Host.divf v25 (broadcastInDim S512 ![] bcast_S_S512 (constant S_ .f32 0x42000000#32))
  let v28 := mulf v22 v22
  let v29 := subf v27 v28
  let v31 := addf v29 (broadcastInDim S512 ![] bcast_S_S512 (constant S_ .f32 0x3727C5AC#32))
  let v32 := Host.rsqrt v31
  let v33 := mulf w3 v32
  let v34 := broadcastInDim S1x512 ![1] bcast_S512_S1x512_1 v33
  let v35 := broadcastInDim S1x512 ![1] bcast_S512_S1x512_1 v22
  let v36 := broadcastInDim S32x512 ![0, 1] bcast_S1x512_S32x512_0_1 v35
  let v37 := subf v19 v36
  let v38 := broadcastInDim S32x512 ![0, 1] bcast_S1x512_S32x512_0_1 v34
  let v39 := mulf v38 v37
  let v40 := broadcastInDim S1x512 ![1] bcast_S512_S1x512_1 w4
  let v41 := broadcastInDim S32x512 ![0, 1] bcast_S1x512_S32x512_0_1 v40
  let v42 := addf v39 v41
  let v43 := extractStridedSlice S32x256 ![0, 0] v42 slices_S32x512_S32x256_0_0
  let v44 := extractStridedSlice S32x256 ![0, 256] v42 slices_S32x512_S32x256_0_256
  addf v43 v44

/-- The whole host arithmetic after the region, from the region's two tables and the four small arguments. -/
def kTail (A1 A2 : FVec F S512x32 .f32) (w1 : FVec F S32x512 .f32) (w2 : FVec F S512x32 .f32) (w3 w4 : FVec F S512 .f32) :
    FVec F S32x256 .f32 :=
  kPost (kS A1) (kS A2) (kGate (kS A1) w1 w2) w3 w4

end Cert.KernelIdeal.KerVal

end
-- ==== Proof.KerRun.lean ====
/-
  THE KERNEL PROGRAM'S RUN ENDS AT ITS HOST ARITHMETIC OF THE REGION'S TWO TABLES. The frame run leaves every buffer that
  is no array of the pipeline at what the fifty-five host operations after the region compute from the region's exit
  contents: there the two output tables hold what the run's proof data say, and every other buffer what it held when
  the region was entered. Folding the operations over ANY contents gives the staged term `kTail` of six buffers (the two
  tables and the four small arguments); at the exit contents the tables are the run's final arrays and the arguments are
  as launched (no operation before the region writes them). The five arguments themselves end unchanged.
-/
import proofs.«161294_j12670153523753_1_alg».proof.Proof.Gen.KernelIdeal.Frame
import proofs.«161294_j12670153523753_1_alg».proof.Proof.KerTerm
import Idealize.ShloMosaic.Lib.StableHlo.Run

noncomputable section

namespace Cert.KernelIdeal.KerVal

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The result buffer after the host operations that follow the region, from any contents: `kTail` of the two tables' and the
    four small arguments' contents. -/
theorem tail_fold (W : Valuation τ sig (Elt F)) :
    after (List.flatten [hostOps1, hostOps1_1, hostOps1_2]) W (main_v45 : DevRef τ sig)
      = kTail (W (main_v1_0 : DevRef τ sig)) (W (main_v1_1 : DevRef τ sig)) (W (main_arg1 : DevRef τ sig))
          (W (main_arg2 : DevRef τ sig)) (W (main_arg3 : DevRef τ sig)) (W (main_arg4 : DevRef τ sig)) := by
  simp only [hostOps1, hostOps1_1, hostOps1_2, List.flatten_cons, List.flatten_nil, List.append_nil, List.cons_append,
    List.nil_append]
  after_results_simp
  rfl

variable (m : (ℓ : Loc nD τ sig) → Buf (Elt F) ℓ) (ρ : Dev nD → PrngReg)

/-- At the region's exit contents: the tables are the run's final arrays, the small arguments as launched. -/
theorem tail_eq (c : Dev nD) :
    Pipeline.afterTail₀ cfgs (dats m) 0 (V0 m) [hostOps1, hostOps1_1, hostOps1_2] c main_v45
      = kTail ((dats m 0 c).arrAt 1 cfg0.N) ((dats m 0 c).arrAt 2 cfg0.N) (m ((c.tc : Thread nD τ).loc main_arg1))
          (m ((c.tc : Thread nD τ).loc main_arg2)) (m ((c.tc : Thread nD τ).loc main_arg3)) (m ((c.tc : Thread nD τ).loc main_arg4)) := by
  unfold Pipeline.afterTail₀
  rw [tail_fold]
  have h1 := Pipeline.withArrays_arr spec0 launch0.win.arr_inj c (V0 m c) (fun w => (dats m 0 c).arrAt w cfg0.N) 1
  have h2 := Pipeline.withArrays_arr spec0 launch0.win.arr_inj c (V0 m c) (fun w => (dats m 0 c).arrAt w cfg0.N) 2
  have a1 := (Pipeline.withArrays_of_ne spec0 c (V0 m c) (fun w => (dats m 0 c).arrAt w cfg0.N) main_arg1
    (by exact (by decide : ∀ w, Pipeline.arrRef spec0 w ≠ main_arg1))).trans (V_main_arg1 m c)
  have a2 := (Pipeline.withArrays_of_ne spec0 c (V0 m c) (fun w => (dats m 0 c).arrAt w cfg0.N) main_arg2
    (by exact (by decide : ∀ w, Pipeline.arrRef spec0 w ≠ main_arg2))).trans (V_main_arg2 m c)
  have a3 := (Pipeline.withArrays_of_ne spec0 c (V0 m c) (fun w => (dats m 0 c).arrAt w cfg0.N) main_arg3
    (by exact (by decide : ∀ w, Pipeline.arrRef spec0 w ≠ main_arg3))).trans (V_main_arg3 m c)
  have a4 := (Pipeline.withArrays_of_ne spec0 c (V0 m c) (fun w => (dats m 0 c).arrAt w cfg0.N) main_arg4
    (by exact (by decide : ∀ w, Pipeline.arrRef spec0 w ≠ main_arg4))).trans (V_main_arg4 m c)
  exact congr (congr (congr (congr (congr (congrArg kTail h1) h2) a1) a2) a3) a4

/-- Every weakly fair execution of the kernel program terminates with its result at `kTail` of the region's two final tables
    and the small arguments as launched, and all five arguments unchanged. -/
theorem run_val :
    θ_run defs (onTc (τ := τ) (main (F := F))) ⟨m, fun _ => 0, ρ⟩ fun r => ∀ c : Dev nD,
      r.2.mem ((c.tc : Thread nD τ).loc main_v45)
          = kTail ((dats m 0 c).arrAt 1 cfg0.N) ((dats m 0 c).arrAt 2 cfg0.N) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v45 (Pipeline.mem_restRefs_of main_v45 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerVal

end
-- ==== Proof.Spec.lean ====
/-
  THE TWO RESULTS AS FORMULAS, over one spelling of the indices.

  The input x is a batch of 32 images of 512 channels of 56 × 56 pixels; e is the channel gate, one number per (image,
  channel); w3, w4 are the batch normalisation's per-channel weight and bias. Both programs return, for image b and
  j < 256, the sum over the channel pair (j, j + 256) of the spatial mean of the gated, batch-normalised image.

  The KERNEL's road (`kerRes`) never forms the gated image. From the channel sums Σ x and Σ x² over a channel's pixels it
  takes the spatial means s and q of x and x²; the gated image's spatial mean is then e·s, its batch mean the mean over
  the images of e·s, its batch mean square the mean of e²·q, its variance the difference "mean square minus squared
  mean", and the result the normalised spatial mean γ·(e·s − mean) + w4 with γ = w3 / √(variance + ε).

  The REFERENCE's road (`refRes`) forms the gated image y = x·e pixel by pixel, takes its mean and its CENTRED
  variance over all 32·56·56 pixels of a channel, normalises every pixel, and only then averages over the pixels.

  Every quantity is an extended real; division is the extended reals' (`Ideal.div`), the literals are kept as the
  bit patterns both programs print.
-/
import Idealize.ShloMosaic.PureOps.Ideal
import Idealize.ShloMosaic.Lib.ValueIdx

noncomputable section

open scoped BigOperators

namespace Cert.SE

open Idealize.ShloMosaic Idealize.ShloMosaic.ValueIdx

/-- The image batch, the per-(image, channel) tables and the per-channel vectors, as functions of library indices. -/
abbrev X4 : Type := (⟨4, ![32, 512, 56, 56]⟩ : Shape).Idx → EReal
abbrev M2 : Type := (⟨2, ![32, 512]⟩ : Shape).Idx → EReal
abbrev V1 : Type := (⟨1, ![512]⟩ : Shape).Idx → EReal

/-- The literals, as printed: 3136, 32, 100352 and the variance offset. -/
abbrev k3136 : EReal := Ideal.ofBits .f32 0x45440000#32
abbrev k32 : EReal := Ideal.ofBits .f32 0x42000000#32
abbrev k100352 : EReal := Ideal.ofBits .f32 0x47C40000#32
abbrev kEps : EReal := Ideal.ofBits .f32 0x3727C5AC#32

/-- Channel j of the lower half and its partner j + 256 of the upper half. -/
def lo (j : Fin 256) : Fin 512 := ⟨j.val, by have := j.isLt; omega⟩
def hi (j : Fin 256) : Fin 512 := ⟨j.val + 256, by have := j.isLt; omega⟩
/-- Channel 256·p + j, for p = 0, 1: `lo j` and `hi j`. -/
def half (p : Fin 2) (j : Fin 256) : Fin 512 := ⟨256 * p.val + j.val, by have := j.isLt; have := p.isLt; omega⟩

/-! ## What both roads start from -/

/-- One channel's sum over its pixels, and the sum of the squares. -/
def chanSum (x : X4) (b : Fin 32) (c : Fin 512) : EReal := ∑ h : Fin 56, ∑ w : Fin 56, x (ix4 b c h w)
def chanSq (x : X4) (b : Fin 32) (c : Fin 512) : EReal := ∑ h : Fin 56, ∑ w : Fin 56, x (ix4 b c h w) * x (ix4 b c h w)

/-- The spatial means of x and of x². -/
def sMean (x : X4) (b : Fin 32) (c : Fin 512) : EReal := Ideal.div (chanSum x b c) k3136
def qMean (x : X4) (b : Fin 32) (c : Fin 512) : EReal := Ideal.div (chanSq x b c) k3136

/-- The spatial mean as a table: what the gate is computed from, on both roads. -/
def sArr (x : X4) : M2 := fun i => sMean x (i 0) (i 1)

/-! ## The kernel's road -/

/-- The gated image's spatial mean. -/
def kM (x : X4) (e : M2) (b : Fin 32) (c : Fin 512) : EReal := e (ix2 b c) * sMean x b c
/-- Its mean over the batch: the channel's batch mean. -/
def kMu (x : X4) (e : M2) (c : Fin 512) : EReal := Ideal.div (∑ b : Fin 32, kM x e b c) k32
/-- The channel's batch mean square. -/
def kMsq (x : X4) (e : M2) (c : Fin 512) : EReal :=
  Ideal.div (∑ b : Fin 32, (e (ix2 b c) * e (ix2 b c)) * qMean x b c) k32
/-- The channel's variance as mean square minus squared mean. -/
def kVar (x : X4) (e : M2) (c : Fin 512) : EReal := kMsq x e c - kMu x e c * kMu x e c
/-- The channel's scale. -/
def kGam (x : X4) (e : M2) (w3 : V1) (c : Fin 512) : EReal := w3 (ix1 c) * Ideal.rsqrt (kVar x e c + kEps)
/-- The normalised spatial mean. -/
def kOut (x : X4) (e : M2) (w3 w4 : V1) (b : Fin 32) (c : Fin 512) : EReal :=
  kGam x e w3 c * (kM x e b c - kMu x e c) + w4 (ix1 c)
/-- The kernel's result at (b, j). -/
def kerRes (x : X4) (e : M2) (w3 w4 : V1) (b : Fin 32) (j : Fin 256) : EReal :=
  kOut x e w3 w4 b (lo j) + kOut x e w3 w4 b (hi j)

/-! ## The reference's road -/

/-- The gated image. -/
def rY (x : X4) (e : M2) (b : Fin 32) (c : Fin 512) (h w : Fin 56) : EReal := x (ix4 b c h w) * e (ix2 b c)
/-- The channel's batch mean, over all its pixels. -/
def rMu (x : X4) (e : M2) (c : Fin 512) : EReal :=
  Ideal.div (∑ b : Fin 32, ∑ h : Fin 56, ∑ w : Fin 56, rY x e b c h w) k100352
/-- The channel's centred variance. -/
def rVar (x : X4) (e : M2) (c : Fin 512) : EReal :=
  Ideal.div (∑ b : Fin 32, ∑ h : Fin 56, ∑ w : Fin 56, (rY x e b c h w - rMu x e c) * (rY x e b c h w - rMu x e c)) k100352
/-- The channel's scale. -/
def rGam (x : X4) (e : M2) (w3 : V1) (c : Fin 512) : EReal := w3 (ix1 c) * Ideal.rsqrt (rVar x e c + kEps)
/-- The normalised image. -/
def rYn (x : X4) (e : M2) (w3 w4 : V1) (b : Fin 32) (c : Fin 512) (h w : Fin 56) : EReal :=
  (rY x e b c h w - rMu x e c) * rGam x e w3 c + w4 (ix1 c)
/-- Its spatial mean. -/
def rPool (x : X4) (e : M2) (w3 w4 : V1) (b : Fin 32) (c : Fin 512) : EReal :=
  Ideal.div (∑ h : Fin 56, ∑ w : Fin 56, rYn x e w3 w4 b c h w) k3136
/-- The reference's result at (b, j): the two halves' spatial means added. -/
def refRes (x : X4) (e : M2) (w3 w4 : V1) (b : Fin 32) (j : Fin 256) : EReal :=
  ∑ p : Fin 2, rPool x e w3 w4 b (half p j)

end Cert.SE

end
-- ==== Proof.LibAxisSums.lean ====
/-
  SUMS OVER SEVERAL AXES OF AN ARRAY, READ AT AN INDEX (general lemmas; they mention no program).

  A sum over some axes of an array is defined, at a result index j, as the sum of the operand over the set of source
  indices whose coordinates on the kept axes are j's. That set is in bijection with the product of the summed axes'
  coordinate ranges: a source index over j is j's coordinates on the kept axes together with one free coordinate on each
  summed axis, and forgetting the kept coordinates recovers the free ones. Re-indexing the sum through that bijection,
  and splitting the sum over a product of ranges into an iterated sum, gives the reading stated here: the sum at j is
  the iterated sum, over the summed axes' coordinates in order, of the operand at the index with j's coordinates and
  those. For one summed axis the same reading follows from the general one-axis statement, whose "index over j with
  coordinate k inserted" is identified coordinate by coordinate. The host's sum adds its initial value in front; a
  kernel's lane sum has none. Every extent is generic: the statements hold at any sizes.
-/
import Idealize.ShloMosaic.PureOps.Ideal.Laws
import Idealize.ShloMosaic.Lib.ValueIdx

noncomputable section

open scoped BigOperators

namespace Cert.Lib.AxisSums

open Idealize.ShloMosaic Idealize.ShloMosaic.ValueIdx

/-- A host sum's shape condition whose result has positive rank is also a lane sum's shape condition: the two differ
    only in that the lane sum's result may not be a scalar. -/
theorem reduces_of_reducesTo {s t : Shape} {axes : List (Fin s.rank)} (h' : s.ReducesTo axes t) (ht : 0 < t.rank) :
    s.Reduces axes t := ⟨h'.1, ht, h'.2⟩

/-- The sum of `x` over the source indices a map `drop` sends to `j`, re-indexed: if `e` lists, without repetition,
    exactly those indices (`e g` drops to `j`; `proj` recovers `g` from `e g`; an index that drops to `j` is `e` of its
    `proj`), the sum is the sum of `x ∘ e` over the whole of `e`'s domain. -/
theorem sum_filter_eq_sum_of_inverse {ι κ γ M : Type*} [Fintype ι] [Fintype γ] [DecidableEq κ] [AddCommMonoid M]
    (drop : ι → κ) (j : κ) (x : ι → M) (e : γ → ι) (proj : ι → γ) (h1 : ∀ g, drop (e g) = j)
    (h2 : ∀ i, drop i = j → e (proj i) = i) (h3 : ∀ g, proj (e g) = g) :
    ∑ i ∈ Finset.univ.filter (fun i => drop i = j), x i = ∑ g, x (e g) := by
  refine Finset.sum_nbij' proj e ?_ ?_ ?_ ?_ ?_
  · intro i _; exact Finset.mem_univ _
  · intro g _; exact Finset.mem_filter.2 ⟨Finset.mem_univ _, h1 g⟩
  · intro i hi; exact h2 i (Finset.mem_filter.1 hi).2
  · intro g _; exact h3 g
  · intro i hi; rw [h2 i (Finset.mem_filter.1 hi).2]

/-- The host's sum over the two trailing axes of `[a, b, c, d]`, read at `(p, q)`. -/
theorem hostReduceAdd_abcd_23_apply {a b c d : ℕ} (h' : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h' x init (ix2 p q) = init + ∑ u : Fin c, ∑ v : Fin d, x (ix4 p q u v) := by
  unfold Ideal.hostReduceAdd
  refine congrArg (init + ·) ?_
  rw [← Fintype.sum_prod_type' (f := fun u v => x (ix4 p q u v))]
  refine sum_filter_eq_sum_of_inverse h'.drop (ix2 p q) x (fun g => ix4 p q g.1 g.2) (fun i => (i 2, i 3)) ?_ ?_ ?_
  · intro g
    funext e; apply Fin.ext
    match e with
    | ⟨0, _⟩ => rfl
    | ⟨1, _⟩ => rfl
  · intro i hi
    have h0 : i 0 = p := Fin.ext (congrArg (fun j : (⟨2, ![a, b]⟩ : Shape).Idx => (j 0).val) hi)
    have h1 : i 1 = q := Fin.ext (congrArg (fun j : (⟨2, ![a, b]⟩ : Shape).Idx => (j 1).val) hi)
    rw [← h0, ← h1]; exact (eq_ix4 i).symm
  · intro g; rfl

/-- The host's sum over every axis but the second of `[a, b, c, d]`, read at `q`. -/
theorem hostReduceAdd_abcd_023_apply {a b c d : ℕ} (h' : (⟨4, ![a, b, c, d]⟩ : Shape).ReducesTo [0, 2, 3] ⟨1, ![b]⟩)
    (x : (⟨4, ![a, b, c, d]⟩ : Shape).Idx → EReal) (init : EReal) (q : Fin b) :
    Ideal.hostReduceAdd h' x init (ix1 q) = init + ∑ p : Fin a, ∑ u : Fin c, ∑ v : Fin d, x (ix4 p q u v) := by
  unfold Ideal.hostReduceAdd
  refine congrArg (init + ·) ?_
  have split : ∑ p : Fin a, ∑ u : Fin c, ∑ v : Fin d, x (ix4 p q u v)
      = ∑ g : Fin a × Fin c × Fin d, x (ix4 g.1 q g.2.1 g.2.2) := by
    rw [Fintype.sum_prod_type]
    exact Finset.sum_congr rfl fun p _ => (Fintype.sum_prod_type' (f := fun u v => x (ix4 p q u v))).symm
  rw [split]
  refine sum_filter_eq_sum_of_inverse h'.drop (ix1 q) x (fun g => ix4 g.1 q g.2.1 g.2.2) (fun i => (i 0, i 2, i 3))
    ?_ ?_ ?_
  · intro g
    funext e; apply Fin.ext
    match e with
    | ⟨0, _⟩ => rfl
  · intro i hi
    have h1 : i 1 = q := Fin.ext (congrArg (fun j : (⟨1, ![b]⟩ : Shape).Idx => (j 0).val) hi)
    rw [← h1]; exact (eq_ix4 i).symm
  · intro g; rfl

/-- The host's sum over the two trailing axes of `[a, b, c, d, e]`, read at `(p, q, r)`. -/
theorem hostReduceAdd_abcde_34_apply {a b c d e : ℕ} (h' : (⟨5, ![a, b, c, d, e]⟩ : Shape).ReducesTo [3, 4] ⟨3, ![a, b, c]⟩)
    (x : (⟨5, ![a, b, c, d, e]⟩ : Shape).Idx → EReal) (init : EReal) (p : Fin a) (q : Fin b) (r : Fin c) :
    Ideal.hostReduceAdd h' x init (ix3 p q r) = init + ∑ u : Fin d, ∑ v : Fin e, x (ix5 p q r u v) := by
  unfold Ideal.hostReduceAdd
  refine congrArg (init + ·) ?_
  rw [← Fintype.sum_prod_type' (f := fun u v => x (ix5 p q r u v))]
  refine sum_filter_eq_sum_of_inverse h'.drop (ix3 p q r) x (fun g => ix5 p q r g.1 g.2) (fun i => (i 3, i 4)) ?_ ?_ ?_
  · intro g
    funext k; apply Fin.ext
    match k with
    | ⟨0, _⟩ => rfl
    | ⟨1, _⟩ => rfl
    | ⟨2, _⟩ => rfl
  · intro i hi
    have h0 : i 0 = p := Fin.ext (congrArg (fun j : (⟨3, ![a, b, c]⟩ : Shape).Idx => (j 0).val) hi)
    have h1 : i 1 = q := Fin.ext (congrArg (fun j : (⟨3, ![a, b, c]⟩ : Shape).Idx => (j 1).val) hi)
    have h2 : i 2 = r := Fin.ext (congrArg (fun j : (⟨3, ![a, b, c]⟩ : Shape).Idx => (j 2).val) hi)
    rw [← h0, ← h1, ← h2]; exact (eq_ix5 i).symm
  · intro g; rfl

/-- The source index a sum over the middle axis of `[a, b, c]` visits over `(p, r)` at coordinate `q`: `(p, q, r)`. -/
theorem lift_abc_1 {a b c : ℕ} (h : (⟨3, ![a, b, c]⟩ : Shape).Reduces [1] ⟨2, ![a, c]⟩) (p : Fin a) (r : Fin c) (q : Fin b) :
    h.lift (ix2 p r) q = ix3 p q r := by
  funext e
  apply Fin.ext
  match e with
  | ⟨0, _⟩ => rfl
  | ⟨1, _⟩ => rfl
  | ⟨2, _⟩ => rfl

/-- The source index a sum over the leading axis of `[a, b]` visits over `q` at coordinate `p`: `(p, q)`. -/
theorem lift_ab_0 {a b : ℕ} (h : (⟨2, ![a, b]⟩ : Shape).Reduces [0] ⟨1, ![b]⟩) (q : Fin b) (p : Fin a) :
    h.lift (ix1 q) p = ix2 p q := by
  funext e
  apply Fin.ext
  match e with
  | ⟨0, _⟩ => rfl
  | ⟨1, _⟩ => rfl

/-- The source index a sum over the trailing axis of `[a, b, c]` visits over `(p, q)` at coordinate `k`: `(p, q, k)`. -/
theorem lift_abc_2 {a b c : ℕ} (h : (⟨3, ![a, b, c]⟩ : Shape).Reduces [2] ⟨2, ![a, b]⟩) (p : Fin a) (q : Fin b) (k : Fin c) :
    h.lift (ix2 p q) k = ix3 p q k := by
  funext e
  apply Fin.ext
  match e with
  | ⟨0, _⟩ => rfl
  | ⟨1, _⟩ => rfl
  | ⟨2, _⟩ => rfl

/-- The host's sum over the middle axis of `[a, b, c]`, read at `(p, r)`. -/
theorem hostReduceAdd_abc_1_apply {a b c : ℕ} (h' : (⟨3, ![a, b, c]⟩ : Shape).ReducesTo [1] ⟨2, ![a, c]⟩)
    (x : (⟨3, ![a, b, c]⟩ : Shape).Idx → EReal) (init : EReal) (p : Fin a) (r : Fin c) :
    Ideal.hostReduceAdd h' x init (ix2 p r) = init + ∑ q : Fin b, x (ix3 p q r) := by
  have h := reduces_of_reducesTo h' Nat.zero_lt_two
  rw [Ideal.hostReduceAdd_single h' h]
  refine congrArg (init + ·) (Finset.sum_congr rfl fun k _ => ?_)
  exact congrArg x (lift_abc_1 h p r k)

/-- The host's sum over the leading axis of `[a, b]`, read at `q`. -/
theorem hostReduceAdd_ab_0_apply {a b : ℕ} (h' : (⟨2, ![a, b]⟩ : Shape).ReducesTo [0] ⟨1, ![b]⟩)
    (x : (⟨2, ![a, b]⟩ : Shape).Idx → EReal) (init : EReal) (q : Fin b) :
    Ideal.hostReduceAdd h' x init (ix1 q) = init + ∑ p : Fin a, x (ix2 p q) := by
  have h := reduces_of_reducesTo h' Nat.zero_lt_one
  rw [Ideal.hostReduceAdd_single h' h]
  refine congrArg (init + ·) (Finset.sum_congr rfl fun k _ => ?_)
  exact congrArg x (lift_ab_0 h q k)

/-- A kernel's lane sum over the trailing axis of `[a, b, c]`, read at `(p, q)`. -/
theorem multiReduction_abc_2_apply {a b c : ℕ} {φ : FTy} (src : FVec Ideal (⟨3, ![a, b, c]⟩ : Shape) φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  rw [Ideal.multiReduction_add_single]
  refine Finset.sum_congr rfl fun k _ => ?_
  exact congrArg src (lift_abc_2 h p q k)

end Cert.Lib.AxisSums

end
-- ==== Proof.LibLayout4.lean ====
/-
  LAYOUT OPERATIONS ON RANK-4 ARRAYS, READ AT AN INDEX (general lemmas; they mention no program).

  A table [a, b] joins an array [a, b, c, d] in two steps: it is placed as [a, b, 1, 1], each entry alone on the two
  trailing axes, and that array is repeated along those axes; so the result at (p, q, u, v) is the table at (p, q).
  A vector [b] joins the same array along its second axis in two steps as well: it is placed as [1, b, 1, 1] and
  repeated along the three other axes; the result at (p, q, u, v) is the vector at q. A coordinate on an axis of
  extent one is zero, which is all that the repeated axes need.

  A change of shape keeps each entry's row-major position. Taking the two trailing axes [c, d] of [a, b, c, d] as one
  axis of n entries puts the pair (u, v) at position u · d + v: both positions are (p · b + q) · (c · d) + u · d + v once
  n = c · d, and that equality is forced by the two shapes having equally many entries as soon as an index exists (the
  extents a and b are then positive and cancel). Splitting the second axis b into [e, f] sends q = r · f + s to the pair
  (r, s) in the same way, with b = e · f obtained by cancelling a on the left and c · d on the right.

  Last, the pairs (u, v) of Fin c × Fin d and the positions u · d + v below c · d correspond one to one, so a sum over
  n = c · d positions is the double sum over the pairs.
-/
import Idealize.ShloMosaic.Lib.Pipeline.Value
import Idealize.ShloMosaic.Lib.ValueIdx
import Mathlib.Algebra.BigOperators.Fin
import Mathlib.Logic.Equiv.Fin.Basic

noncomputable section

open scoped BigOperators

namespace Cert.Lib.Layout4

open Idealize.ShloMosaic Idealize.ShloMosaic.ValueIdx

variable {α : Type}

/-- A table `[a, b]` placed as `[a, b, 1, 1]` reads, at `(p, q, u, v)`, the table at `(p, q)`. -/
theorem bcast_ab_ab11_apply {a b : ℕ} (x : (⟨2, ![a, b]⟩ : Shape).Idx → α)
    (h : (⟨2, ![a, b]⟩ : Shape).BroadcastsInDim ⟨4, ![a, b, 1, 1]⟩ ![0, 1]) (p : Fin a) (q : Fin b) (u v : Fin 1) :
    broadcastInDim ⟨4, ![a, b, 1, 1]⟩ ![0, 1] h x (ix4 p q u v) = x (ix2 p q) := by
  refine broadcastInDim_apply _ h x (ix4 p q u v) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- `[a, b, 1, 1]` repeated over the two trailing axes to `[a, b, c, d]` reads, at `(p, q, u, v)`, the operand at `(p, q, 0, 0)`. -/
theorem bcast_ab11_abcd_apply {a b c d : ℕ} (x : (⟨4, ![a, b, 1, 1]⟩ : Shape).Idx → α)
    (h : (⟨4, ![a, b, 1, 1]⟩ : Shape).BroadcastsInDim ⟨4, ![a, b, c, d]⟩ ![0, 1, 2, 3])
    (p : Fin a) (q : Fin b) (u : Fin c) (v : Fin d) :
    broadcastInDim ⟨4, ![a, b, c, d]⟩ ![0, 1, 2, 3] h x (ix4 p q u v) = x (ix4 p q (0 : Fin 1) (0 : Fin 1)) := by
  refine broadcastInDim_apply _ h x (ix4 p q u v) (ix4 p q (0 : Fin 1) (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show (0 : ℕ) = if (1 : ℕ) = 1 then 0 else u.val
    rw [if_pos rfl]
  | ⟨3, _⟩ =>
    show (0 : ℕ) = if (1 : ℕ) = 1 then 0 else v.val
    rw [if_pos rfl]

/-- A vector `[b]` placed as `[1, b, 1, 1]` reads, at `(z, q, u, v)`, the vector at `q`. -/
theorem bcast_b_1b11_apply {b : ℕ} (x : (⟨1, ![b]⟩ : Shape).Idx → α)
    (h : (⟨1, ![b]⟩ : Shape).BroadcastsInDim ⟨4, ![1, b, 1, 1]⟩ ![1]) (z : Fin 1) (q : Fin b) (u v : Fin 1) :
    broadcastInDim ⟨4, ![1, b, 1, 1]⟩ ![1] h x (ix4 z q u v) = x (ix1 q) := by
  refine broadcastInDim_apply _ h x (ix4 z q u v) (ix1 q) fun ax => ?_
  match ax with
  | ⟨0, _⟩ =>
    show q.val = if b = 1 then 0 else q.val
    split
    · have := q.isLt; omega
    · rfl

/-- `[1, b, 1, 1]` repeated to `[a, b, c, d]` reads, at `(p, q, u, v)`, the operand at `(0, q, 0, 0)`. -/
theorem bcast_1b11_abcd_apply {a b c d : ℕ} (x : (⟨4, ![1, b, 1, 1]⟩ : Shape).Idx → α)
    (h : (⟨4, ![1, b, 1, 1]⟩ : Shape).BroadcastsInDim ⟨4, ![a, b, c, d]⟩ ![0, 1, 2, 3])
    (p : Fin a) (q : Fin b) (u : Fin c) (v : Fin d) :
    broadcastInDim ⟨4, ![a, b, c, d]⟩ ![0, 1, 2, 3] h x (ix4 p q u v) = x (ix4 (0 : Fin 1) q (0 : Fin 1) (0 : Fin 1)) := by
  refine broadcastInDim_apply _ h x (ix4 p q u v) (ix4 (0 : Fin 1) q (0 : Fin 1) (0 : Fin 1)) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl
  | ⟨2, _⟩ =>
    show (0 : ℕ) = if (1 : ℕ) = 1 then 0 else u.val
    rw [if_pos rfl]
  | ⟨3, _⟩ =>
    show (0 : ℕ) = if (1 : ℕ) = 1 then 0 else v.val
    rw [if_pos rfl]

/-- Two shapes `[a, b, c, d]` and `[a, b, n]` with equally many entries, the extents `a` and `b` positive, have
    `n = c · d`. -/
theorem trailing_eq_mul {a b c d n : ℕ} (h : (⟨4, ![a, b, c, d]⟩ : Shape).ShapeCasts ⟨3, ![a, b, n]⟩)
    (ha : 0 < a) (hb : 0 < b) : n = c * d := by
  have h' : a * (b * n) = a * (b * (c * d)) := by
    have := h
    simp only [Shape.ShapeCasts, Shape.numel, Fin.prod_univ_succ, Fin.prod_univ_zero] at this
    simpa using this
  exact Nat.eq_of_mul_eq_mul_left hb (Nat.eq_of_mul_eq_mul_left ha h')

/-- `[a, b, c, d]` read as `[a, b, n]` with `n = c · d` (the two trailing axes taken as one) reads, at `(p, q, k)` with
    `k = u · d + v`, the operand at `(p, q, u, v)`. -/
theorem shapeCast_abcd_abn_apply {a b c d n : ℕ} (x : (⟨4, ![a, b, c, d]⟩ : Shape).Idx → α)
    (h : (⟨4, ![a, b, c, d]⟩ : Shape).ShapeCasts ⟨3, ![a, b, n]⟩) (p : Fin a) (q : Fin b) (u : Fin c) (v : Fin d) (k : Fin n)
    (hk : k.val = u.val * d + v.val) : shapeCast ⟨3, ![a, b, n]⟩ x h (ix3 p q k) = x (ix4 p q u v) := by
  have hn : n = c * d := trailing_eq_mul h (Nat.zero_lt_of_lt p.isLt) (Nat.zero_lt_of_lt q.isLt)
  refine shapeCast_apply x h _ _ ?_
  rw [Shape.rowMajor_val_four, Shape.rowMajor_val_three]
  show ((p.val * b + q.val) * c + u.val) * d + v.val = (p.val * b + q.val) * n + k.val
  rw [hk, hn]
  ring

/-- Two shapes `[a, b, c, d]` and `[a, e, f, c, d]` with equally many entries, the extents `a`, `c` and `d` positive,
    have `b = e · f`. -/
theorem second_eq_mul {a b c d e f : ℕ} (h : (⟨4, ![a, b, c, d]⟩ : Shape).ShapeCasts ⟨5, ![a, e, f, c, d]⟩)
    (ha : 0 < a) (hc : 0 < c) (hd : 0 < d) : b = e * f := by
  have h' : a * (e * f * (c * d)) = a * (b * (c * d)) := by
    have := h
    simp only [Shape.ShapeCasts, Shape.numel, Fin.prod_univ_succ, Fin.prod_univ_zero] at this
    simpa [Nat.mul_assoc] using this
  exact (Nat.eq_of_mul_eq_mul_right (Nat.mul_pos hc hd) (Nat.eq_of_mul_eq_mul_left ha h')).symm

/-- `[a, b, c, d]` read as `[a, e, f, c, d]` with `b = e · f` (the second axis split in two) reads, at `(p, r, s, u, v)`,
    the operand at `(p, q, u, v)` with `q = r · f + s`. -/
theorem shapeCast_abcd_aefcd_apply {a b c d e f : ℕ} (x : (⟨4, ![a, b, c, d]⟩ : Shape).Idx → α)
    (h : (⟨4, ![a, b, c, d]⟩ : Shape).ShapeCasts ⟨5, ![a, e, f, c, d]⟩) (p : Fin a) (r : Fin e) (s : Fin f) (u : Fin c) (v : Fin d)
    (q : Fin b) (hq : q.val = r.val * f + s.val) : shapeCast ⟨5, ![a, e, f, c, d]⟩ x h (ix5 p r s u v) = x (ix4 p q u v) := by
  have hb : b = e * f :=
    second_eq_mul h (Nat.zero_lt_of_lt p.isLt) (Nat.zero_lt_of_lt u.isLt) (Nat.zero_lt_of_lt v.isLt)
  refine shapeCast_apply x h _ _ ?_
  rw [Shape.rowMajor_val_four, Shape.rowMajor_val_five]
  show ((p.val * b + q.val) * c + u.val) * d + v.val = (((p.val * e + r.val) * f + s.val) * c + u.val) * d + v.val
  rw [hq, hb]
  ring

/-- A sum over `n = c · d` positions is the double sum over `(u, v)` with position `u · d + v`. -/
theorem sum_fin_mul_of {M : Type*} [AddCommMonoid M] {c d n : ℕ} (hn : n = c * d) (f : Fin n → M) (g : Fin c → Fin d → M)
    (hfg : ∀ (u : Fin c) (v : Fin d) (k : Fin n), k.val = u.val * d + v.val → f k = g u v) :
    ∑ k : Fin n, f k = ∑ u : Fin c, ∑ v : Fin d, g u v := by
  subst hn
  rw [← Fintype.sum_prod_type' g]
  refine (Fintype.sum_equiv finProdFinEquiv _ _ fun x => ?_).symm
  refine (hfg x.1 x.2 (finProdFinEquiv x) ?_).symm
  rw [finProdFinEquiv_apply_val, Nat.mul_comm, Nat.add_comm]

end Cert.Lib.Layout4

end
-- ==== Proof.KerBlocks.lean ====
/-
  WHAT THE REGION LEAVES IN ITS TWO OUTPUT TABLES.

  The region sees the image batch with each channel's 56 × 56 pixels laid on one axis of 3136 positions, row after
  row: position h · 56 + w holds pixel (h, w). Its grid has 16 points; point t takes the 32 channels 32t … 32t + 31 of
  every image, all positions, and stores two 32 × 32 blocks: at (channel in the block, image) the sum over the positions
  of the entries, and the sum of their squares — a sum along the last axis followed by an exchange of the two remaining
  axes, so that channels index the rows. Each block is written back as rows 32t … 32t + 31 of a 512 × 32 table.

  Read entry by entry, the block point t writes back is the restriction to those rows of ONE function of the whole
  reshaped batch: (channel, image) ↦ the sum over the 3136 positions (of the entries; of their squares). The input
  block's entry at (image, channel c' of the block, position) is the batch's entry at (image, 32t + c', position), and
  row c' of the output block is row 32t + c' of the table, so both sides name the same channel. Row r of a table lies in
  the block of point r / 32, so the 16 blocks fill each table, and each table ends equal to that function everywhere.

  Last, a sum over the 3136 positions is the double sum over the 56 rows and 56 columns of pixels, position h · 56 + w
  matched with pixel (h, w); this turns the two tables into the per-channel sums of x and of x² over the pixels.
-/
import proofs.«161294_j12670153523753_1_alg».proof.Proof.Gen.KernelIdeal.Frame
import proofs.«161294_j12670153523753_1_alg».proof.Proof.Spec
import proofs.«161294_j12670153523753_1_alg».proof.Proof.LibAxisSums
import proofs.«161294_j12670153523753_1_alg».proof.Proof.LibLayout4
import Idealize.ShloMosaic.Lib.Pipeline.Value
import Idealize.ShloMosaic.Lib.ValueLayout
import Idealize.ShloMosaic.Lib.StableHlo.Run

noncomputable section

open scoped BigOperators

namespace Cert.KernelIdeal.KerVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The image batch as launched, and the region's two output tables after the run, each at its literal type. -/
abbrev xArg (c : Dev nD) : FVec Ideal S32x512x56x56 .f32 := m ((c.tc : Thread nD τ).loc main_arg0)
abbrev sumArr (c : Dev nD) : FVec Ideal S512x32 .f32 := (dats (F := Ideal) m 0 c).arrAt 1 cfg0.N
abbrev sqArr (c : Dev nD) : FVec Ideal S512x32 .f32 := (dats (F := Ideal) m 0 c).arrAt 2 cfg0.N

/-! ## What the body stores, entry by entry -/

/-- The first stored block at (channel, image) is the lane sum of the input block at (image, channel). -/
theorem sumBlock_apply (x0 : FVec Ideal S32x32x3136 .f32) (cc b : Fin 32) :
    k0_pay2 (F := Ideal) x0 (ix2 cc b) = ∑ k : Fin 3136, x0 (ix3 b cc k) := by
  unfold k0_pay2 k0_pay1
  dsimp only
  rw [shapeCast_self]
  refine (transpose_ix2_apply _ _ cc b).trans ?_
  exact Cert.Lib.AxisSums.multiReduction_abc_2_apply x0 _ _ _ _ b cc

/-- The second stored block at (channel, image) is the lane sum of the squares of the input block at (image, channel). -/
theorem sqBlock_apply (x0 : FVec Ideal S32x32x3136 .f32) (cc b : Fin 32) :
    k0_pay3 (F := Ideal) x0 (ix2 cc b) = ∑ k : Fin 3136, x0 (ix3 b cc k) * x0 (ix3 b cc k) := by
  unfold k0_pay3 k0_pay1
  dsimp only
  rw [shapeCast_self]
  refine (transpose_ix2_apply _ _ cc b).trans ?_
  refine (Cert.Lib.AxisSums.multiReduction_abc_2_apply (mulf x0 x0) _ _ _ _ b cc).trans ?_
  rfl

/-! ## The two tables as functions of the reshaped batch -/

/-- The batch as the region finds it: images × channels × pixels, the pixels of a channel on one axis. -/
abbrev x2Arr (c : Dev nD) : FVec Ideal S32x512x3136 .f32 := V m c main_v0

/-- At (channel, image): the sum over the pixel axis. -/
def laneSums (x2 : FVec Ideal S32x512x3136 .f32) : FVec Ideal S512x32 .f32 :=
  fun i => ∑ k : Fin 3136, x2 (ix3 (i 1) (i 0) k)

/-- At (channel, image): the sum of the squares over the pixel axis. -/
def laneSqs (x2 : FVec Ideal S32x512x3136 .f32) : FVec Ideal S512x32 .f32 :=
  fun i => ∑ k : Fin 3136, x2 (ix3 (i 1) (i 0) k) * x2 (ix3 (i 1) (i 0) k)

theorem zeros3 : (![0, 0, 0] : Fin 3 → Nat) = fun _ => 0 := funext fun a => by fin_cases a <;> rfl
theorem zeros2 : (![0, 0] : Fin 2 → Nat) = fun _ => 0 := funext fun a => by fin_cases a <;> rfl

/-- Where the blocks of point t sit: the input's block is channel block t (all images, all pixels); each output's block
    is row block t of its table. -/
theorem block_indices : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A block of lane sums is the table of lane sums read where the block sits: if the input block `x0` is the array `x2`
    read through `E`, and `E` sends (image, channel-in-block `j 0`, pixel) to (image, channel `i 0`, pixel). -/
theorem sumBlock_eq (x0 : FVec Ideal S32x32x3136 .f32) (x2 : FVec Ideal S32x512x3136 .f32)
    (E : S32x32x3136.Idx → S32x512x3136.Idx) (hx : ∀ y, x0 y = x2 (E y)) (j : S32x32.Idx) (i : S512x32.Idx)
    (hE : ∀ k : Fin 3136, E (ix3 (j 1) (j 0) k) = ix3 (i 1) (i 0) k) :
    k0_pay2 (F := Ideal) x0 j = laneSums x2 i := by
  refine (congrArg (k0_pay2 (F := Ideal) x0) (eq_ix2 j)).trans ((sumBlock_apply x0 (j 0) (j 1)).trans ?_)
  unfold laneSums
  refine Finset.sum_congr rfl fun k _ => ?_
  exact (hx _).trans (congrArg x2 (hE k))

theorem sqBlock_eq (x0 : FVec Ideal S32x32x3136 .f32) (x2 : FVec Ideal S32x512x3136 .f32)
    (E : S32x32x3136.Idx → S32x512x3136.Idx) (hx : ∀ y, x0 y = x2 (E y)) (j : S32x32.Idx) (i : S512x32.Idx)
    (hE : ∀ k : Fin 3136, E (ix3 (j 1) (j 0) k) = ix3 (i 1) (i 0) k) :
    k0_pay3 (F := Ideal) x0 j = laneSqs x2 i := by
  refine (congrArg (k0_pay3 (F := Ideal) x0) (eq_ix2 j)).trans ((sqBlock_apply x0 (j 0) (j 1)).trans ?_)
  unfold laneSqs
  refine Finset.sum_congr rfl fun k _ => ?_
  have e : x0 (ix3 (j 1) (j 0) k) = x2 (ix3 (i 1) (i 0) k) := (hx _).trans (congrArg x2 (hE k))
  exact congrArg₂ (· * ·) e e

/-! ## What each point writes back -/

/-- Point t writes back, into the first table, block t of the table of lane sums. -/
theorem flushedSum_eq (c : Dev nD) (t : Fin cfg0.N) :
    (dats (F := Ideal) m 0 c).flushed 1 t = ((cfg0.win 1).blk t).view.read (Elt Ideal) (laneSums (x2Arr m c)) := by
  show (cfg0.win 1).cut (grid0.coords t) ((dats (F := Ideal) m 0 c).after 1 t) = _
  rw [after0_1]
  unfold out0_1
  rw [View.canon_unit_zero zeros2]
  simp only [View.ld_unit_zero (S := S32x32x3136) zeros3]
  obtain ⟨e0, e1, e2, e3, e4, e5, e6⟩ := block_indices t
  funext j
  show k0_pay2 (F := Ideal) (iblk m c 0 t) j = laneSums (x2Arr m c) (((cfg0.win 1).blk t).view.emb j)
  refine sumBlock_eq (iblk m c 0 t) (x2Arr m c) ((cfg0.win 0).blk t).view.emb (fun y => rfl) j _ fun k => ?_
  funext a; apply Fin.ext
  match a with
  | ⟨0, _⟩ => show win0_0.index t (0 : Fin 3) * 32 + 1 * (j 1).val = win0_1.index t (1 : Fin 2) * 32 + 1 * (j 1).val; omega
  | ⟨1, _⟩ => show win0_0.index t (1 : Fin 3) * 32 + 1 * (j 0).val = win0_1.index t (0 : Fin 2) * 32 + 1 * (j 0).val; omega
  | ⟨2, _⟩ => show win0_0.index t (2 : Fin 3) * 3136 + 1 * k.val = k.val; omega

/-- Point t writes back, into the second table, block t of the table of lane sums of squares. -/
theorem flushedSq_eq (c : Dev nD) (t : Fin cfg0.N) :
    (dats (F := Ideal) m 0 c).flushed 2 t = ((cfg0.win 2).blk t).view.read (Elt Ideal) (laneSqs (x2Arr m c)) := by
  show (cfg0.win 2).cut (grid0.coords t) ((dats (F := Ideal) m 0 c).after 2 t) = _
  rw [after0_2]
  unfold out0_2
  rw [View.canon_unit_zero zeros2]
  simp only [View.ld_unit_zero (S := S32x32x3136) zeros3]
  obtain ⟨e0, e1, e2, e3, e4, e5, e6⟩ := block_indices t
  funext j
  show k0_pay3 (F := Ideal) (iblk m c 0 t) j = laneSqs (x2Arr m c) (((cfg0.win 2).blk t).view.emb j)
  refine sqBlock_eq (iblk m c 0 t) (x2Arr m c) ((cfg0.win 0).blk t).view.emb (fun y => rfl) j _ fun k => ?_
  funext a; apply Fin.ext
  match a with
  | ⟨0, _⟩ => show win0_0.index t (0 : Fin 3) * 32 + 1 * (j 1).val = win0_2.index t (1 : Fin 2) * 32 + 1 * (j 1).val; omega
  | ⟨1, _⟩ => show win0_0.index t (1 : Fin 3) * 32 + 1 * (j 0).val = win0_2.index t (0 : Fin 2) * 32 + 1 * (j 0).val; omega
  | ⟨2, _⟩ => show win0_0.index t (2 : Fin 3) * 3136 + 1 * k.val = k.val; omega

/-! ## The blocks fill the tables -/

/-- An entry of the first table is in point t's block iff each coordinate is in the block's range on its axis. -/
theorem mem_sumBlock (t : Fin cfg0.N) (i : S512x32.Idx) :
    i ∈ ((cfg0.win 1).blk t).view.set ↔ ∀ a : Fin 2, win0_1.index t a * S32x32.size a ≤ (i a).val ∧ (i a).val < win0_1.index t a * S32x32.size a + S32x32.size a := by
  show i ∈ ((View.whole main_v1_0).slice (win0_1.rect t)).set ↔ _
  rw [View.set_slice_whole, Rect.mem_set_unit]
  exact Iff.rfl

/-- The same for the second table. -/
theorem mem_sqBlock (t : Fin cfg0.N) (i : S512x32.Idx) :
    i ∈ ((cfg0.win 2).blk t).view.set ↔ ∀ a : Fin 2, win0_2.index t a * S32x32.size a ≤ (i a).val ∧ (i a).val < win0_2.index t a * S32x32.size a + S32x32.size a := by
  show i ∈ ((View.whole main_v1_1).slice (win0_2.rect t)).set ↔ _
  rw [View.set_slice_whole, Rect.mem_set_unit]
  exact Iff.rfl

/-- Row r of a table lies in the block of point r / 32. -/
theorem sum_cover (i : S512x32.Idx) :
    ∃ t : Fin cfg0.N, (cfg0.win 1).flush t = true ∧ i ∈ ((cfg0.win 1).blk t).view.set := by
  have hi0 : (i 0).val < 512 := (i 0).isLt
  have hi1 : (i 1).val < 32 := (i 1).isLt
  have hN : cfg0.N = 16 := N_0
  let t : Fin cfg0.N := ⟨(i 0).val / 32, by rw [hN]; omega⟩
  have ht : t.val = (i 0).val / 32 := rfl
  obtain ⟨e0, e1, e2, e3, e4, e5, e6⟩ := block_indices t
  refine ⟨t, flush0_1 t, ?_⟩
  rw [mem_sumBlock]
  intro a
  match a with
  | ⟨0, _⟩ => show win0_1.index t (0 : Fin 2) * 32 ≤ (i 0).val ∧ (i 0).val < win0_1.index t (0 : Fin 2) * 32 + 32; omega
  | ⟨1, _⟩ => show win0_1.index t (1 : Fin 2) * 32 ≤ (i 1).val ∧ (i 1).val < win0_1.index t (1 : Fin 2) * 32 + 32; omega

theorem sq_cover (i : S512x32.Idx) :
    ∃ t : Fin cfg0.N, (cfg0.win 2).flush t = true ∧ i ∈ ((cfg0.win 2).blk t).view.set := by
  have hi0 : (i 0).val < 512 := (i 0).isLt
  have hi1 : (i 1).val < 32 := (i 1).isLt
  have hN : cfg0.N = 16 := N_0
  let t : Fin cfg0.N := ⟨(i 0).val / 32, by rw [hN]; omega⟩
  have ht : t.val = (i 0).val / 32 := rfl
  obtain ⟨e0, e1, e2, e3, e4, e5, e6⟩ := block_indices t
  refine ⟨t, flush0_2 t, ?_⟩
  rw [mem_sqBlock]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 32 ≤ (i 1).val ∧ (i 1).val < win0_2.index t (1 : Fin 2) * 32 + 32; omega

/-! ## The tables after the run -/

/-- The first table ends holding the lane sums of the reshaped batch. -/
theorem sumArr_eq (c : Dev nD) : sumArr m c = laneSums (x2Arr m c) :=
  (dats (F := Ideal) m 0 c).arrAt_eq_of_cover 1 (laneSums (x2Arr m c)) (fun t _ => flushedSum_eq m c t) sum_cover

/-- The second table ends holding the lane sums of squares of the reshaped batch. -/
theorem sqArr_eq (c : Dev nD) : sqArr m c = laneSqs (x2Arr m c) :=
  (dats (F := Ideal) m 0 c).arrAt_eq_of_cover 2 (laneSqs (x2Arr m c)) (fun t _ => flushedSq_eq m c t) sq_cover

/-! ## From the reshaped batch to the pixels -/

/-- The region finds the batch with each channel's 56 × 56 pixels laid on one axis of 3136, row after row. -/
theorem x2Arr_eq (c : Dev nD) :
    x2Arr m c = shapeCast S32x512x3136 (xArg m c) shapeCasts_S32x512x56x56_S32x512x3136 := by
  show StableHlo.after hostOps0 (fun b => m (c, b)) (Proc.devRef .tc main_v0) = _
  after_results
  rfl

/-- Position k = h · 56 + w of the pixel axis holds pixel (h, w). -/
theorem x2Arr_apply (c : Dev nD) (b : Fin 32) (ch : Fin 512) (h w : Fin 56) (k : Fin 3136) (hk : k.val = h.val * 56 + w.val) :
    x2Arr m c (ix3 b ch k) = xArg m c (ix4 b ch h w) := by
  rw [x2Arr_eq]
  exact Cert.Lib.Layout4.shapeCast_abcd_abn_apply (xArg m c) shapeCasts_S32x512x56x56_S32x512x3136 b ch h w k hk

/-- After the run the first table holds, at (channel, image), that channel's sum of x over its pixels. -/
theorem sumArr_apply (c : Dev nD) (ch : Fin 512) (b : Fin 32) :
    sumArr m c (ix2 ch b) = Cert.SE.chanSum (xArg m c) b ch := by
  rw [sumArr_eq]
  unfold Cert.SE.chanSum
  show ∑ k : Fin 3136, x2Arr m c (ix3 b ch k) = _
  exact Cert.Lib.Layout4.sum_fin_mul_of (by norm_num) _ (fun h w => xArg m c (ix4 b ch h w))
    (fun h w k hk => x2Arr_apply m c b ch h w k hk)

/-- After the run the second table holds, at (channel, image), that channel's sum of x² over its pixels. -/
theorem sqArr_apply (c : Dev nD) (ch : Fin 512) (b : Fin 32) :
    sqArr m c (ix2 ch b) = Cert.SE.chanSq (xArg m c) b ch := by
  rw [sqArr_eq]
  unfold Cert.SE.chanSq
  show ∑ k : Fin 3136, x2Arr m c (ix3 b ch k) * x2Arr m c (ix3 b ch k) = _
  exact Cert.Lib.Layout4.sum_fin_mul_of (by norm_num) _ (fun h w => xArg m c (ix4 b ch h w) * xArg m c (ix4 b ch h w))
    (fun h w k hk => by rw [x2Arr_apply m c b ch h w k hk])

end Cert.KernelIdeal.KerVal

end
-- ==== Proof.Consts.lean ====
/-
  The float literals the two programs spell, as the numbers their bit patterns denote on the extended reals:
  3136 = 56 · 56 (one channel's spatial extent), 32 (the batch), 100352 = 32 · 3136 (the population one channel's
  batch statistics are taken over), 1, 0, and the variance offset (the float nearest 1e-5) as a positive real.
  Also here: the integer 0 converted to a float is 0, the comparison that guards the reference's variance
  (is the population size above zero?) answers yes, and the logistic gate 1 / (1 + e^(-z)) is a real number at
  EVERY extended-real argument z (at z = -∞ the exponential is +∞ and the quotient 0; at z = +∞ it is 1).
-/
import Idealize.ShloMosaic.PureOps.Ideal
import Idealize.ShloMosaic.PureOps.Ideal.Laws

noncomputable section

namespace Cert.SE.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_3136 : Ideal.ofBits .f32 0x45440000#32 = ((3136 : ℝ) : EReal) := by
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

theorem ofBits_100352 : Ideal.ofBits .f32 0x47C40000#32 = ((100352 : ℝ) : EReal) := by
  simp [Ideal.ofBits, Ideal.ieee, -EReal.coe_mul]; norm_num

/-- The variance offset: the float nearest 1e-5 is 10995116 / 2^40, a positive real. -/
theorem ofBits_eps : Ideal.ofBits .f32 0x3727C5AC#32 = (((10995116 : ℝ) / 2 ^ 40 : ℝ) : EReal) := by
  simp [Ideal.ofBits, Ideal.ieee, -EReal.coe_mul]; norm_num

theorem eps_pos : (0 : ℝ) < (10995116 : ℝ) / 2 ^ 40 := by norm_num

end Cert.SE.Consts

end
-- ==== Proof.Algebra.lean ====
/-
  THE TWO ROADS GIVE ONE NUMBER, when the image, the gate and the batch normalisation's weight and bias are finite.

  Every entry being the image of a real number, the whole computation is carried into the reals: a finite sum of
  such images is the image of the sum, division by one of the literals 3136, 32, 100352 is multiplication by its
  reciprocal, and the reciprocal square root is taken at a positive real (a variance that is not negative, plus a
  positive offset). Over the reals, for one channel with B images of N pixels:
    · the mean over all B·N gated pixels is the mean over the images of (gate · spatial mean), the gate of an image
      being a common factor of its pixel sum;
    · the centred variance is the mean square minus the squared mean (expand the square: the cross term sums to twice
      the squared mean, the constant term to the squared mean once), and the mean square of the gated pixels is the
      mean over the images of (gate² · spatial mean of the squares); so the two scales γ agree;
    · averaging the normalised pixels (y − μ)·γ + β over an image gives (gate · spatial mean − μ)·γ + β.
  The reference's sum over the two halves of the channel axis is the kernel's sum over the pair (j, j + 256).
-/
import proofs.«161294_j12670153523753_1_alg».proof.Proof.Spec
import proofs.«161294_j12670153523753_1_alg».proof.Proof.Consts

noncomputable section

open scoped BigOperators

namespace Cert.SE

open Idealize.ShloMosaic Idealize.ShloMosaic.ValueIdx

/-- The logistic gate 1 / (1 + e^(-z)), spelt with the programs' literal for 1, is a real number at every extended real z. -/
theorem logistic_real (z : EReal) :
    ∃ r : ℝ, Ideal.div (Ideal.ofBits .f32 0x3F800000#32) (Ideal.ofBits .f32 0x3F800000#32 + Ideal.exp (-z)) = (r : EReal) := by
  rw [Consts.ofBits_one]
  change ∃ r : ℝ, Ideal.logistic z = (r : EReal)
  induction z using EReal.rec with
  | bot => exact ⟨0, by rw [Ideal.logistic_bot, EReal.coe_zero]⟩
  | coe r => exact ⟨_, Ideal.logistic_coe r⟩
  | top => exact ⟨1, by rw [Ideal.logistic_top, EReal.coe_one]⟩

namespace Alg

/-! ## A finite sum of real numbers, read as an extended real, is the sum of the summands read so -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The identities over the reals, for one channel

  One channel is a table X of reals indexed by image b and pixel p, with one gate E b per image. N is the number
  of pixels of an image and B the number of images. -/

section OneChannel

variable {ιb ιp : Type*} [Fintype ιb] [Fintype ιp] (X : ιb → ιp → ℝ) (E : ιb → ℝ) (N B K : ℝ)

/-- The gate of an image is a common factor of its pixel sum. -/
theorem sum_gated (b : ιb) : ∑ p, X b p * E b = E b * ∑ p, X b p := by
  rw [Finset.mul_sum]; exact Finset.sum_congr rfl fun p _ => mul_comm _ _

/-- The batch mean over all pixels is the batch mean of the gated spatial means. -/
theorem mean_eq (hK : K = B * N) (hN : N ≠ 0) (hB : B ≠ 0) :
    (∑ b, ∑ p, X b p * E b) * (1 / K) = (∑ b, E b * ((∑ p, X b p) * (1 / N))) * (1 / B) := by
  subst hK
  have h : ∑ b, E b * ((∑ p, X b p) * (1 / N)) = (∑ b, ∑ p, X b p * E b) * (1 / N) := by
    rw [Finset.sum_mul]; exact Finset.sum_congr rfl fun b _ => by rw [sum_gated]; ring
  rw [h]; field_simp

/-- The centred variance is the mean square minus the squared mean: expand the square; the cross term is twice
    the squared mean and the constant term, summed over the B·N pixels, is the squared mean once. -/
theorem var_eq (hK : K = B * N) (hcb : (Fintype.card ιb : ℝ) = B) (hcp : (Fintype.card ιp : ℝ) = N)
    (hN : N ≠ 0) (hB : B ≠ 0) (μ : ℝ) (hμ : μ = (∑ b, ∑ p, X b p * E b) * (1 / K)) :
    (∑ b, ∑ p, (X b p * E b - μ) * (X b p * E b - μ)) * (1 / K)
      = (∑ b, (E b * E b) * ((∑ p, X b p * X b p) * (1 / N))) * (1 / B) - μ * μ := by
  subst hK
  have h1 : ∀ b, ∑ p, (X b p * E b - μ) * (X b p * E b - μ)
      = (E b * E b) * (∑ p, X b p * X b p) - 2 * μ * (∑ p, X b p * E b) + N * (μ * μ) := by
    intro b
    have : ∀ p, (X b p * E b - μ) * (X b p * E b - μ)
        = (E b * E b) * (X b p * X b p) - 2 * μ * (X b p * E b) + μ * μ := fun p => by ring
    simp only [this, Finset.sum_add_distrib, Finset.sum_sub_distrib, ← Finset.mul_sum, Finset.sum_const,
      Finset.card_univ, nsmul_eq_mul, hcp]
    ring
  have h2 : ∑ b, ∑ p, (X b p * E b - μ) * (X b p * E b - μ)
      = (∑ b, (E b * E b) * (∑ p, X b p * X b p)) - 2 * μ * (∑ b, ∑ p, X b p * E b) + B * (N * (μ * μ)) := by
    simp only [h1, Finset.sum_add_distrib, Finset.sum_sub_distrib, ← Finset.mul_sum, Finset.sum_const,
      Finset.card_univ, nsmul_eq_mul, hcb]
    ring
  have h3 : ∑ b, (E b * E b) * ((∑ p, X b p * X b p) * (1 / N))
      = (∑ b, (E b * E b) * (∑ p, X b p * X b p)) * (1 / N) := by
    rw [Finset.sum_mul]; exact Finset.sum_congr rfl fun b _ => by ring
  have h4 : ∑ b, ∑ p, X b p * E b = B * N * μ := by rw [hμ]; field_simp
  rw [h2, h3, h4]; field_simp; ring

/-- The centred variance is not negative. -/
theorem var_nonneg (hK : 0 < K) (μ : ℝ) :
    0 ≤ (∑ b, ∑ p, (X b p * E b - μ) * (X b p * E b - μ)) * (1 / K) := by
  apply mul_nonneg
  · exact Finset.sum_nonneg fun b _ => Finset.sum_nonneg fun p _ => mul_self_nonneg _
  · exact le_of_lt (one_div_pos.mpr hK)

/-- Normalising every pixel and then averaging is normalising the average. -/
theorem pool_eq (hcp : (Fintype.card ιp : ℝ) = N) (hN : N ≠ 0) (μ γ β : ℝ) (b : ιb) :
    (∑ p, ((X b p * E b - μ) * γ + β)) * (1 / N) = γ * (E b * ((∑ p, X b p) * (1 / N)) - μ) + β := by
  have h : ∑ p, ((X b p * E b - μ) * γ + β) = (E b * (∑ p, X b p) - N * μ) * γ + N * β := by
    simp only [Finset.sum_add_distrib, ← Finset.sum_mul, Finset.sum_sub_distrib, sum_gated, Finset.sum_const,
      Finset.card_univ, nsmul_eq_mul, hcp]
    ring
  rw [h]; field_simp

end OneChannel

/-! ## The two roads over the reals

  The formulas of the specification once more, letter for letter, on real tables X, E, W3, W4: division by a literal
  is multiplication by its reciprocal, and the reciprocal square root is taken of a positive number. -/

namespace Re

variable (X : Fin 32 → Fin 512 → Fin 56 → Fin 56 → ℝ) (E : Fin 32 → Fin 512 → ℝ) (W3 W4 : Fin 512 → ℝ)

/-- The variance offset. -/
def eps : ℝ := 10995116 / 2 ^ 40

def chanSum (b : Fin 32) (c : Fin 512) : ℝ := ∑ h : Fin 56, ∑ w : Fin 56, X b c h w
def chanSq (b : Fin 32) (c : Fin 512) : ℝ := ∑ h : Fin 56, ∑ w : Fin 56, X b c h w * X b c h w
def sMean (b : Fin 32) (c : Fin 512) : ℝ := chanSum X b c * (1 / 3136)
def qMean (b : Fin 32) (c : Fin 512) : ℝ := chanSq X b c * (1 / 3136)
def kM (b : Fin 32) (c : Fin 512) : ℝ := E b c * sMean X b c
def kMu (c : Fin 512) : ℝ := (∑ b : Fin 32, kM X E b c) * (1 / 32)
def kMsq (c : Fin 512) : ℝ := (∑ b : Fin 32, (E b c * E b c) * qMean X b c) * (1 / 32)
def kVar (c : Fin 512) : ℝ := kMsq X E c - kMu X E c * kMu X E c
def kGam (c : Fin 512) : ℝ := W3 c * (Real.sqrt (kVar X E c + eps))⁻¹
def kOut (b : Fin 32) (c : Fin 512) : ℝ := kGam X E W3 c * (kM X E b c - kMu X E c) + W4 c
def rY (b : Fin 32) (c : Fin 512) (h w : Fin 56) : ℝ := X b c h w * E b c
def rMu (c : Fin 512) : ℝ := (∑ b : Fin 32, ∑ h : Fin 56, ∑ w : Fin 56, rY X E b c h w) * (1 / 100352)
def rVar (c : Fin 512) : ℝ :=
  (∑ b : Fin 32, ∑ h : Fin 56, ∑ w : Fin 56, (rY X E b c h w - rMu X E c) * (rY X E b c h w - rMu X E c)) * (1 / 100352)
def rGam (c : Fin 512) : ℝ := W3 c * (Real.sqrt (rVar X E c + eps))⁻¹
def rYn (b : Fin 32) (c : Fin 512) (h w : Fin 56) : ℝ := (rY X E b c h w - rMu X E c) * rGam X E W3 c + W4 c
def rPool (b : Fin 32) (c : Fin 512) : ℝ := (∑ h : Fin 56, ∑ w : Fin 56, rYn X E W3 W4 b c h w) * (1 / 3136)

/-- An image has 56 · 56 = 3136 pixels and the batch 32 images. -/
theorem card_pixels : (Fintype.card (Fin 56 × Fin 56) : ℝ) = 3136 := by
  rw [Fintype.card_prod, Fintype.card_fin]; norm_num
theorem card_batch : (Fintype.card (Fin 32) : ℝ) = 32 := by
  rw [Fintype.card_fin]; norm_num

/-- The two batch means agree. -/
theorem rMu_eq (c : Fin 512) : rMu X E c = kMu X E c := by
  have h := mean_eq (ιp := Fin 56 × Fin 56) (fun b p => X b c p.1 p.2) (fun b => E b c) 3136 32 100352
    (by norm_num) (by norm_num) (by norm_num)
  simp only [Fintype.sum_prod_type] at h
  exact h

/-- The two variances agree. -/
theorem rVar_eq (c : Fin 512) : rVar X E c = kVar X E c := by
  have h := var_eq (ιp := Fin 56 × Fin 56) (fun b p => X b c p.1 p.2) (fun b => E b c) 3136 32 100352
    (by norm_num) card_batch card_pixels (by norm_num) (by norm_num) (rMu X E c)
    (by simp only [Fintype.sum_prod_type]; rfl)
  simp only [Fintype.sum_prod_type] at h
  rw [kVar, ← rMu_eq]
  exact h

/-- The variance is not negative, so the offset makes the square root's argument positive. -/
theorem rVar_nonneg (c : Fin 512) : 0 ≤ rVar X E c := by
  have h := var_nonneg (ιp := Fin 56 × Fin 56) (fun b p => X b c p.1 p.2) (fun b => E b c) 100352
    (by norm_num) (rMu X E c)
  simp only [Fintype.sum_prod_type] at h
  exact h

theorem eps_pos : 0 < eps := Consts.eps_pos

theorem kVar_eps_pos (c : Fin 512) : 0 < kVar X E c + eps := by
  rw [← rVar_eq]; exact add_pos_of_nonneg_of_pos (rVar_nonneg X E c) eps_pos

/-- The two scales agree. -/
theorem rGam_eq (c : Fin 512) : rGam X E W3 c = kGam X E W3 c := by
  rw [rGam, kGam, rVar_eq]

/-- The spatial mean of the normalised image is the normalised spatial mean. -/
theorem rPool_eq (b : Fin 32) (c : Fin 512) : rPool X E W3 W4 b c = kOut X E W3 W4 b c := by
  have h := pool_eq (ιb := Fin 32) (ιp := Fin 56 × Fin 56) (fun b p => X b c p.1 p.2) (fun b => E b c) 3136
    card_pixels (by norm_num) (rMu X E c) (rGam X E W3 c) (W4 c) b
  simp only [Fintype.sum_prod_type] at h
  rw [kOut, ← rGam_eq, ← rMu_eq]
  exact h

end Re

/-! ## Each quantity of the specification is the real one, read as an extended real -/

section Casts

variable {x : X4} {e : M2} {w3 w4 : V1}
  {X : Fin 32 → Fin 512 → Fin 56 → Fin 56 → ℝ} {E : Fin 32 → Fin 512 → ℝ} {W3 W4 : Fin 512 → ℝ}
  (hX : ∀ b c h w, x (ix4 b c h w) = (X b c h w : EReal)) (hE : ∀ b c, e (ix2 b c) = (E b c : EReal))
  (hW3 : ∀ c, w3 (ix1 c) = (W3 c : EReal)) (hW4 : ∀ c, w4 (ix1 c) = (W4 c : EReal))

include hX in
theorem chanSum_coe (b : Fin 32) (c : Fin 512) : chanSum x b c = (Re.chanSum X b c : EReal) := by
  simp only [chanSum, Re.chanSum, hX, coe_sum]

include hX in
theorem chanSq_coe (b : Fin 32) (c : Fin 512) : chanSq x b c = (Re.chanSq X b c : EReal) := by
  simp only [chanSq, Re.chanSq, hX, coe_sum, EReal.coe_mul]

include hX in
theorem sMean_coe (b : Fin 32) (c : Fin 512) : sMean x b c = (Re.sMean X b c : EReal) := by
  rw [sMean, k3136, Consts.ofBits_3136, Ideal.div_coe (by norm_num), chanSum_coe hX, ← EReal.coe_mul]; rfl

include hX in
theorem qMean_coe (b : Fin 32) (c : Fin 512) : qMean x b c = (Re.qMean X b c : EReal) := by
  rw [qMean, k3136, Consts.ofBits_3136, Ideal.div_coe (by norm_num), chanSq_coe hX, ← EReal.coe_mul]; rfl

include hX hE in
theorem kM_coe (b : Fin 32) (c : Fin 512) : kM x e b c = (Re.kM X E b c : EReal) := by
  rw [kM, hE, sMean_coe hX, ← EReal.coe_mul]; rfl

include hX hE in
theorem kMu_coe (c : Fin 512) : kMu x e c = (Re.kMu X E c : EReal) := by
  simp only [kMu, kM_coe hX hE, ← coe_sum]
  rw [k32, Consts.ofBits_32, Ideal.div_coe (by norm_num), ← EReal.coe_mul]; rfl

include hX hE in
theorem kMsq_coe (c : Fin 512) : kMsq x e c = (Re.kMsq X E c : EReal) := by
  simp only [kMsq, hE, qMean_coe hX, ← EReal.coe_mul, ← coe_sum]
  rw [k32, Consts.ofBits_32, Ideal.div_coe (by norm_num), ← EReal.coe_mul]; rfl

include hX hE in
theorem kVar_coe (c : Fin 512) : kVar x e c = (Re.kVar X E c : EReal) := by
  rw [kVar, kMsq_coe hX hE, kMu_coe hX hE, ← EReal.coe_mul, ← EReal.coe_sub]; rfl

/-- The reciprocal square root of a positive real, read as an extended real. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

include hX hE hW3 in
theorem kGam_coe (c : Fin 512) : kGam x e w3 c = (Re.kGam X E W3 c : EReal) := by
  have hpos : 0 < Re.kVar X E c + 10995116 / 2 ^ 40 := Re.kVar_eps_pos X E c
  rw [kGam, hW3, kVar_coe hX hE, kEps, Consts.ofBits_eps, ← EReal.coe_add, rsqrt_pos hpos, ← EReal.coe_mul]; rfl

include hX hE hW3 hW4 in
theorem kOut_coe (b : Fin 32) (c : Fin 512) : kOut x e w3 w4 b c = (Re.kOut X E W3 W4 b c : EReal) := by
  rw [kOut, kGam_coe hX hE hW3, kM_coe hX hE, kMu_coe hX hE, hW4, ← EReal.coe_sub, ← EReal.coe_mul, ← EReal.coe_add]; rfl

include hX hE in
theorem rY_coe (b : Fin 32) (c : Fin 512) (h w : Fin 56) : rY x e b c h w = (Re.rY X E b c h w : EReal) := by
  rw [rY, hX, hE, ← EReal.coe_mul]; rfl

include hX hE in
theorem rMu_coe (c : Fin 512) : rMu x e c = (Re.rMu X E c : EReal) := by
  simp only [rMu, rY_coe hX hE, ← coe_sum]
  rw [k100352, Consts.ofBits_100352, Ideal.div_coe (by norm_num), ← EReal.coe_mul]; rfl

include hX hE in
theorem rVar_coe (c : Fin 512) : rVar x e c = (Re.rVar X E c : EReal) := by
  simp only [rVar, rY_coe hX hE, rMu_coe hX hE, ← EReal.coe_sub, ← EReal.coe_mul, ← coe_sum]
  rw [k100352, Consts.ofBits_100352, Ideal.div_coe (by norm_num), ← EReal.coe_mul]; rfl

include hX hE hW3 in
theorem rGam_coe (c : Fin 512) : rGam x e w3 c = (Re.rGam X E W3 c : EReal) := by
  have hpos : 0 < Re.rVar X E c + 10995116 / 2 ^ 40 := by
    rw [Re.rVar_eq]; exact Re.kVar_eps_pos X E c
  rw [rGam, hW3, rVar_coe hX hE, kEps, Consts.ofBits_eps, ← EReal.coe_add, rsqrt_pos hpos, ← EReal.coe_mul]; rfl

include hX hE hW3 hW4 in
theorem rYn_coe (b : Fin 32) (c : Fin 512) (h w : Fin 56) :
    rYn x e w3 w4 b c h w = (Re.rYn X E W3 W4 b c h w : EReal) := by
  rw [rYn, rY_coe hX hE, rMu_coe hX hE, rGam_coe hX hE hW3, hW4, ← EReal.coe_sub, ← EReal.coe_mul, ← EReal.coe_add]; rfl

include hX hE hW3 hW4 in
theorem rPool_coe (b : Fin 32) (c : Fin 512) : rPool x e w3 w4 b c = (Re.rPool X E W3 W4 b c : EReal) := by
  simp only [rPool, rYn_coe hX hE hW3 hW4, ← coe_sum]
  rw [k3136, Consts.ofBits_3136, Ideal.div_coe (by norm_num), ← EReal.coe_mul]; rfl

end Casts

/-- The two halves of the channel axis, by name. -/
theorem half_zero (j : Fin 256) : half 0 j = lo j := Fin.ext (by simp [half, lo])
theorem half_one (j : Fin 256) : half 1 j = hi j := Fin.ext (by simp [half, hi]; omega)

end Alg

open Alg in
/-- With finite x, e, w3, w4 the kernel's road and the reference's road end at the same extended real. -/
theorem kerRes_eq_refRes (x : X4) (e : M2) (w3 w4 : V1)
    (hx : ∀ i, ∃ r : ℝ, x i = (r : EReal)) (he : ∀ i, ∃ r : ℝ, e i = (r : EReal))
    (h3 : ∀ i, ∃ r : ℝ, w3 i = (r : EReal)) (h4 : ∀ i, ∃ r : ℝ, w4 i = (r : EReal))
    (b : Fin 32) (j : Fin 256) : kerRes x e w3 w4 b j = refRes x e w3 w4 b j := by
  choose X hX using fun b c h w => hx (ix4 b c h w)
  choose E hE using fun b c => he (ix2 b c)
  choose W3 hW3 using fun c => h3 (ix1 c)
  choose W4 hW4 using fun c => h4 (ix1 c)
  rw [kerRes, refRes, Fin.sum_univ_two, half_zero, half_one,
    kOut_coe hX hE hW3 hW4, kOut_coe hX hE hW3 hW4, rPool_coe hX hE hW3 hW4, rPool_coe hX hE hW3 hW4,
    Re.rPool_eq, Re.rPool_eq]

end Cert.SE

end
-- ==== Proof.LibRowNetLayout.lean ====
/-
  LAYOUT OPERATIONS OF A ROW-WISE NETWORK, READ AT AN INDEX (general lemmas; they mention no program).

  A table [a, b] of biases joins a batch [c, a, b] in two steps: it is placed as the one slab of [1, a, b] and that slab
  is repeated along the leading axis. A row statistic [a] joins its rows [a, b] in two steps as well: it is placed as
  the column [a, 1] and the column is repeated along the second axis. A scalar is repeated over any shape. An array
  [a, b, c] read as [a, n] with n = b · c lays each item's b groups of c side by side: column p · c + q is the pair
  (p, q). And the sum over the second axis of [a, b], on the extended reals, is the initial value plus the finite sum
  over that axis's coordinates. Every statement reads the operation at an index written by its coordinates and names
  the operand's entry it is.
-/
import Idealize.ShloMosaic.Lib.Pipeline.Value
import Idealize.ShloMosaic.Lib.ValueIdx
import Idealize.ShloMosaic.PureOps.Ideal.Laws

noncomputable section

open scoped BigOperators

namespace Cert.RefLayout

open Idealize.ShloMosaic Idealize.ShloMosaic.ValueIdx

variable {α : Type}

/-- A scalar repeated over a shape reads, at every index, the scalar. -/
theorem broadcastInDim_scalar_apply {t : Shape} (dims : Fin 0 → Fin t.rank) (x : (⟨0, ![]⟩ : Shape).Idx → α)
    (h : (⟨0, ![]⟩ : Shape).BroadcastsInDim t dims) (j : t.Idx) : broadcastInDim t dims h x j = x ix0 :=
  broadcastInDim_apply dims h x j ix0 fun a => a.elim0

/-- A table `[a, b]` placed as the one slab of `[1, a, b]` reads, at `(u, i, j)`, the table at `(i, j)`. -/
theorem broadcastInDim_ab_1ab_apply {a b : ℕ} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) := by
  refine broadcastInDim_apply _ h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- The one slab `[1, a, b]` repeated to `[c, a, b]` reads, at `(w, i, j)`, the slab at `(0, i, j)`. -/
theorem broadcastInDim_1ab_cab_apply {a b c : ℕ} (x : (⟨3, ![1, a, b]⟩ : Shape).Idx → α)
    (h : (⟨3, ![1, a, b]⟩ : Shape).BroadcastsInDim ⟨3, ![c, a, b]⟩ ![0, 1, 2]) (w : Fin c) (i : Fin a) (j : Fin b) :
    broadcastInDim ⟨3, ![c, a, b]⟩ ![0, 1, 2] h x (ix3 w i j) = x (ix3 (0 : Fin 1) i j) := by
  refine broadcastInDim_apply _ h x (ix3 w i j) (ix3 (0 : Fin 1) i j) fun ax => ?_
  match ax with
  | ⟨0, _⟩ =>
    show (0 : ℕ) = if (1 : ℕ) = 1 then 0 else w.val
    rw [if_pos rfl]
  | ⟨1, _⟩ =>
    show i.val = if a = 1 then 0 else i.val
    split
    · have := i.isLt; omega
    · rfl
  | ⟨2, _⟩ =>
    show j.val = if b = 1 then 0 else j.val
    split
    · have := j.isLt; omega
    · rfl

/-- A vector `[a]` placed as the column `[a, 1]` reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column `[a, 1]` repeated to `[a, b]` reads, at `(i, j)`, the column at `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- An `[a, b, c]` array read as `[a, n]` with `n = b · c` (its two trailing axes taken as one) reads, at `(i, r)` with
    `r = p · c + q`, the operand at `(i, p, q)`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (p : Fin b) (q : Fin c) (r : Fin n)
    (hr : r.val = p.val * c + q.val) : shapeCast ⟨2, ![a, n]⟩ x h (ix2 i r) = x (ix3 i p q) :=
  shapeCast_apply x h _ _ (by
    rw [Shape.rowMajor_val_three, Shape.rowMajor_val_two]
    show (i.val * b + p.val) * c + q.val = i.val * n + r.val
    rw [hr, hn, Nat.add_mul, Nat.mul_assoc, Nat.add_assoc])

/-- The coordinates of the source index a sum over the second axis of `[a, b]` visits: row `i`, column `k`. -/
theorem lift_rows {a b : ℕ} (h : (⟨2, ![a, b]⟩ : Shape).Reduces [1] ⟨1, ![a]⟩) (i : Fin a) (k : Fin b) :
    h.lift (ix1 i) k = ix2 i k := by
  funext c
  apply Fin.ext
  match c with
  | ⟨0, _⟩ => rfl
  | ⟨1, _⟩ => rfl

/-- The sum over the second axis of `[a, b]`, on the extended reals, read at `i`: the initial value plus the sum over
    the columns `k` of the operand at `(i, k)`. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ k : Fin b, x (ix2 i k) := by
  rw [Ideal.hostReduceAdd_single h' h]
  refine congrArg (init + ·) (Finset.sum_congr rfl fun k _ => ?_)
  exact congrArg x (lift_rows h i k)

end Cert.RefLayout

end
-- ==== Proof.LibRowBroadcast.lean ====
/-
  ONE ROW REPEATED OVER MANY, IN THE HOST'S SPELLING, READ AT AN INDEX (general lemmas; they mention no program).

  A vector [b] joins a table [a, b] in two steps: it is placed as the one row of [1, b], and that row is repeated along
  the leading axis. At (u, j) the placed row reads the vector at j; at (i, j) the repeated row reads the row at (0, j).
-/
import Idealize.ShloMosaic.Lib.Pipeline.Value
import Idealize.ShloMosaic.Lib.ValueIdx

namespace Cert.Lib.RowBroadcast

open Idealize.ShloMosaic Idealize.ShloMosaic.ValueIdx

variable {α : Type}

/-- A vector `[b]` placed as the one row of `[1, b]` reads, at `(u, j)`, the vector at `j`. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The one row `[1, b]` repeated to `[a, b]` reads, at `(i, j)`, the row at `(0, j)`. -/
theorem broadcastInDim_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

end Cert.Lib.RowBroadcast
-- ==== Proof.KerRead.lean ====
/-
  THE KERNEL PROGRAM'S HOST ARITHMETIC, READ AT AN INDEX.

  On the extended reals every operation is exact, and each whole-array operation, read at one index, is that operation on
  entries: a transposed table at (b, c) is the table at (c, b); a scalar repeated over a shape is that scalar everywhere; a
  vector of 512 entries laid as one row and repeated over 32 rows reads, at (b, c), the vector at c; the sum over the leading
  axis, at c, is the initial value 0 plus the finite sum over the 32 rows; a slice of width 256 starting at column o reads,
  at (b, j), the source at (b, o + j).

  Read so, from the outside in:
  * the gate at an index is 1 / (1 + e^(-z)) for ONE extended real z, an entry of the second small product, which is never
    opened; that quotient is a real number at every z, the two infinities included;
  * a channel-major table of sums, transposed and divided by 3136, has at (b, c) the table's entry (c, b) over 3136: from
    the sums of x it is the table s of spatial means, from the sums of x² it has the spatial means q of x²;
  * after the gate e: the gated mean m = e · s; its mean over the 32 images, μ; the mean over the images of (e · e) · q;
    the variance as that mean minus μ · μ; the scale γ = w3 · rsqrt(variance + ε); the normalised entry γ · (m − μ) + w4;
    and at (b, j) the sum of the normalised entries of channels j and j + 256.
  Factor for factor and in the same order these are the formulas of the kernel's road, so nothing is rearranged: each stage
  is read at its index and the stage below it substituted.
-/
import proofs.«161294_j12670153523753_1_alg».proof.Proof.KerTerm
import proofs.«161294_j12670153523753_1_alg».proof.Proof.Spec
import proofs.«161294_j12670153523753_1_alg».proof.Proof.Consts
import proofs.«161294_j12670153523753_1_alg».proof.Proof.Algebra
import proofs.«161294_j12670153523753_1_alg».proof.Proof.LibAxisSums
import proofs.«161294_j12670153523753_1_alg».proof.Proof.LibRowNetLayout
import proofs.«161294_j12670153523753_1_alg».proof.Proof.LibRowBroadcast
import Idealize.ShloMosaic.Lib.ValueLayout
import Idealize.ShloMosaic.Lib.Pipeline.Value

noncomputable section

open scoped BigOperators

namespace Cert.KernelIdeal.KerVal

open Cert.KernelIdeal Cert.KernelIdeal.Gen Idealize.ShloMosaic Idealize.ShloMosaic.ValueIdx

/-! ## The gate -/

/-- The gate is a real number at every (image, channel), whatever it is computed from. -/
theorem kGate_real (s : FVec Ideal S32x512 .f32) (w1 : FVec Ideal S32x512 .f32) (w2 : FVec Ideal S512x32 .f32) (i : S32x512.Idx) :
    ∃ r : ℝ, kGate (F := Ideal) s w1 w2 i = (r : EReal) := by
  unfold kGate
  dsimp only
  -- the second product stays one unopened array z; only its entry at i matters
  generalize Host.dotGeneral (F := Ideal) _ _ (maximumf (F := Ideal) _ _) _ = z
  show ∃ r : ℝ, Ideal.div (broadcastInDim S32x512 ![] bcast_S_S32x512 (constant (F := Ideal) S_ .f32 0x3F800000#32) i)
      (broadcastInDim S32x512 ![] bcast_S_S32x512 (constant (F := Ideal) S_ .f32 0x3F800000#32) i + Ideal.exp (-(z i))) = (r : EReal)
  rw [Cert.RefLayout.broadcastInDim_scalar_apply, constant_apply]
  exact Cert.SE.logistic_real _

/-! ## The spatial means -/

/-- A channel-major table whose entry (c, b) is `f b c`, turned image-major and divided by the pixel count, has at (b, c)
    the quotient `f b c / 3136`. -/
theorem kS_apply (A : FVec Ideal S512x32 .f32) (f : Fin 32 → Fin 512 → EReal)
    (hA : ∀ (c : Fin 512) (b : Fin 32), A (ix2 c b) = f b c) (b : Fin 32) (c : Fin 512) :
    kS (F := Ideal) A (ix2 b c) = Ideal.div (f b c) Cert.SE.k3136 := by
  unfold kS
  show Ideal.div (transpose S32x512 [1, 0] A transposes_S512x32_S32x512_1_0 (ix2 b c))
      (broadcastInDim S32x512 ![] bcast_S_S32x512 (constant (F := Ideal) S_ .f32 0x45440000#32) (ix2 b c)) = _
  rw [Cert.RefLayout.broadcastInDim_scalar_apply, constant_apply]
  refine congrArg (Ideal.div · _) ?_
  exact (transpose_ix2_apply A transposes_S512x32_S32x512_1_0 b c).trans (hA c b)

/-- From the table of channel sums of x it is, as a whole array, the table of x's spatial means. -/
theorem kS_sArr (x : Cert.SE.X4) (A1 : FVec Ideal S512x32 .f32)
    (hA1 : ∀ (c : Fin 512) (b : Fin 32), A1 (ix2 c b) = Cert.SE.chanSum x b c) :
    kS (F := Ideal) A1 = Cert.SE.sArr x := by
  funext i
  obtain ⟨b, c, rfl⟩ : ∃ (b : Fin 32) (c : Fin 512), i = ix2 b c := ⟨i 0, i 1, eq_ix2 i⟩
  exact kS_apply A1 _ hA1 b c

/-! ## After the gate, stage by stage

  The stages of the arithmetic after the gate, each named once: the gated mean, its batch mean, the batch mean square, the
  scale, a per-channel vector repeated over the images, and the normalised table whose two halves are added at the end. -/

/-- The gated spatial mean e · s. -/
private def pM (s e : FVec Ideal S32x512 .f32) : FVec Ideal S32x512 .f32 := mulf e s

/-- Its mean over the images, per channel. -/
private def pMu (s e : FVec Ideal S32x512 .f32) : FVec Ideal S512 .f32 :=
  Host.divf (Host.reduceAdd (pM s e) (constant S_ .f32 0x00000000#32) reducesTo_S32x512_S512_d0 h_S_)
    (broadcastInDim S512 ![] bcast_S_S512 (constant S_ .f32 0x42000000#32))

/-- The mean over the images of (e · e) · q, per channel. -/
private def pMsq (q e : FVec Ideal S32x512 .f32) : FVec Ideal S512 .f32 :=
  Host.divf (Host.reduceAdd (mulf (mulf e e) q) (constant S_ .f32 0x00000000#32) reducesTo_S32x512_S512_d0 h_S_)
    (broadcastInDim S512 ![] bcast_S_S512 (constant S_ .f32 0x42000000#32))

/-- The scale w3 · rsqrt(mean square − mean · mean + ε), per channel. -/
private def pGam (s q e : FVec Ideal S32x512 .f32) (w3 : FVec Ideal S512 .f32) : FVec Ideal S512 .f32 :=
  mulf w3 (Host.rsqrt (addf (subf (pMsq q e) (mulf (pMu s e) (pMu s e)))
    (broadcastInDim S512 ![] bcast_S_S512 (constant S_ .f32 0x3727C5AC#32))))

/-- A per-channel vector laid as one row and repeated over the 32 images. -/
private def pRow (v : FVec Ideal S512 .f32) : FVec Ideal S32x512 .f32 :=
  broadcastInDim S32x512 ![0, 1] bcast_S1x512_S32x512_0_1 (broadcastInDim S1x512 ![1] bcast_S512_S1x512_1 v)

/-- The normalised table γ · (m − μ) + w4 over all 512 channels. -/
private def pOut (s q e : FVec Ideal S32x512 .f32) (w3 w4 : FVec Ideal S512 .f32) : FVec Ideal S32x512 .f32 :=
  addf (mulf (pRow (pGam s q e w3)) (subf (pM s e) (pRow (pMu s e)))) (pRow w4)

/-- Everything after the gate is the lower half of the normalised table plus its upper half. -/
private theorem kPost_eq (s q e : FVec Ideal S32x512 .f32) (w3 w4 : FVec Ideal S512 .f32) :
    kPost (F := Ideal) s q e w3 w4
      = addf (extractStridedSlice S32x256 ![0, 0] (pOut s q e w3 w4) slices_S32x512_S32x256_0_0)
          (extractStridedSlice S32x256 ![0, 256] (pOut s q e w3 w4) slices_S32x512_S32x256_0_256) := rfl

/-- The repeated row reads, at (b, c), the vector at c. -/
private theorem pRow_apply (v : FVec Ideal S512 .f32) (b : Fin 32) (c : Fin 512) : pRow v (ix2 b c) = v (ix1 c) := by
  unfold pRow
  refine (Cert.Lib.RowBroadcast.broadcastInDim_1b_ab_apply _ bcast_S1x512_S32x512_0_1 b c).trans ?_
  exact Cert.Lib.RowBroadcast.broadcastInDim_b_1b_apply v bcast_S512_S1x512_1 0 c

/-- The sum over the images from 0, divided by 32, read at channel c: the finite sum of the column over 32. -/
private theorem colMean_apply (m : FVec Ideal S32x512 .f32) (c : Fin 512) :
    Host.divf (F := Ideal) (Host.reduceAdd m (constant S_ .f32 0x00000000#32) reducesTo_S32x512_S512_d0 h_S_)
        (broadcastInDim S512 ![] bcast_S_S512 (constant S_ .f32 0x42000000#32)) (ix1 c)
      = Ideal.div (∑ b : Fin 32, m (ix2 b c)) Cert.SE.k32 := by
  show Ideal.div (Ideal.hostReduceAdd reducesTo_S32x512_S512_d0 m (Ideal.ofBits .f32 0x00000000#32) (ix1 c))
      (broadcastInDim S512 ![] bcast_S_S512 (constant (F := Ideal) S_ .f32 0x42000000#32) (ix1 c)) = _
  rw [Cert.RefLayout.broadcastInDim_scalar_apply, constant_apply]
  refine congrArg (Ideal.div · _) ?_
  refine (Cert.Lib.AxisSums.hostReduceAdd_ab_0_apply reducesTo_S32x512_S512_d0 m _ c).trans ?_
  rw [Cert.SE.Consts.ofBits_zero, zero_add]

/-! ## The stages against the formulas of the kernel's road

  Here s has the spatial means of x as entries and q those of x²; e is any table. -/

section Road
variable (x : Cert.SE.X4) (s q e : FVec Ideal S32x512 .f32) (w3 w4 : FVec Ideal S512 .f32)
  (hs : ∀ (b : Fin 32) (c : Fin 512), s (ix2 b c) = Cert.SE.sMean x b c)
  (hq : ∀ (b : Fin 32) (c : Fin 512), q (ix2 b c) = Cert.SE.qMean x b c)
include hs

/-- The gated mean. -/
private theorem pM_apply (b : Fin 32) (c : Fin 512) : pM s e (ix2 b c) = Cert.SE.kM x e b c := by
  show e (ix2 b c) * s (ix2 b c) = e (ix2 b c) * Cert.SE.sMean x b c
  rw [hs b c]

/-- Its batch mean. -/
private theorem pMu_apply (c : Fin 512) : pMu s e (ix1 c) = Cert.SE.kMu x e c := by
  unfold pMu Cert.SE.kMu
  refine (colMean_apply (pM s e) c).trans ?_
  refine congrArg (Ideal.div · _) (Finset.sum_congr rfl fun b _ => ?_)
  exact pM_apply x s e hs b c

include hq

/-- The batch mean square. -/
private theorem pMsq_apply (c : Fin 512) : pMsq q e (ix1 c) = Cert.SE.kMsq x e c := by
  unfold pMsq Cert.SE.kMsq
  refine (colMean_apply (mulf (mulf e e) q) c).trans ?_
  refine congrArg (Ideal.div · _) (Finset.sum_congr rfl fun b _ => ?_)
  show e (ix2 b c) * e (ix2 b c) * q (ix2 b c) = e (ix2 b c) * e (ix2 b c) * Cert.SE.qMean x b c
  rw [hq b c]

/-- The scale. -/
private theorem pGam_apply (c : Fin 512) : pGam s q e w3 (ix1 c) = Cert.SE.kGam x e w3 c := by
  unfold pGam Cert.SE.kGam Cert.SE.kVar
  show w3 (ix1 c) * Ideal.rsqrt ((pMsq q e (ix1 c) - pMu s e (ix1 c) * pMu s e (ix1 c))
      + broadcastInDim S512 ![] bcast_S_S512 (constant (F := Ideal) S_ .f32 0x3727C5AC#32) (ix1 c)) = _
  rw [Cert.RefLayout.broadcastInDim_scalar_apply, constant_apply, pMsq_apply x s q e hs hq c, pMu_apply x s e hs c]

/-- The normalised entry of any channel. -/
private theorem pOut_apply (b : Fin 32) (c : Fin 512) : pOut s q e w3 w4 (ix2 b c) = Cert.SE.kOut x e w3 w4 b c := by
  unfold pOut Cert.SE.kOut
  show pRow (pGam s q e w3) (ix2 b c) * (pM s e (ix2 b c) - pRow (pMu s e) (ix2 b c)) + pRow w4 (ix2 b c) = _
  rw [pRow_apply, pRow_apply, pRow_apply, pGam_apply x s q e w3 hs hq c, pM_apply x s e hs b c, pMu_apply x s e hs c]

/-- Everything after the gate, at (b, j): the normalised entries of channels j and j + 256, added. -/
theorem kPost_apply (b : Fin 32) (j : Fin 256) :
    kPost (F := Ideal) s q e w3 w4 (ix2 b j) = Cert.SE.kerRes x e w3 w4 b j := by
  rw [kPost_eq]
  unfold Cert.SE.kerRes
  show extractStridedSlice S32x256 ![0, 0] (pOut s q e w3 w4) slices_S32x512_S32x256_0_0 (ix2 b j)
      + extractStridedSlice S32x256 ![0, 256] (pOut s q e w3 w4) slices_S32x512_S32x256_0_256 (ix2 b j) = _
  rw [slice2_axis1_apply 0 (pOut s q e w3 w4) slices_S32x512_S32x256_0_0 b j (Cert.SE.lo j) (Nat.zero_add _).symm,
    slice2_axis1_apply 256 (pOut s q e w3 w4) slices_S32x512_S32x256_0_256 b j (Cert.SE.hi j) (Nat.add_comm _ _),
    pOut_apply x s q e w3 w4 hs hq b (Cert.SE.lo j), pOut_apply x s q e w3 w4 hs hq b (Cert.SE.hi j)]

end Road

/-- From the two tables of channel sums (of x and of x², channel-major) the program's host arithmetic ends, at (b, j), at the
    kernel road's formula of the image batch x, with the gate computed from x's spatial means. -/
theorem kTail_apply (x : Cert.SE.X4) (A1 A2 : FVec Ideal S512x32 .f32) (w1 : FVec Ideal S32x512 .f32) (w2 : FVec Ideal S512x32 .f32)
    (w3 w4 : FVec Ideal S512 .f32)
    (hA1 : ∀ (c : Fin 512) (b : Fin 32), A1 (ix2 c b) = Cert.SE.chanSum x b c)
    (hA2 : ∀ (c : Fin 512) (b : Fin 32), A2 (ix2 c b) = Cert.SE.chanSq x b c) (b : Fin 32) (j : Fin 256) :
    kTail (F := Ideal) A1 A2 w1 w2 w3 w4 (ix2 b j)
      = Cert.SE.kerRes x (kGate (F := Ideal) (Cert.SE.sArr x) w1 w2) w3 w4 b j := by
  unfold kTail
  rw [kS_sArr x A1 hA1]
  exact kPost_apply x (Cert.SE.sArr x) (kS (F := Ideal) A2) _ w3 w4 (fun _ _ => rfl)
    (fun b c => kS_apply A2 _ hA2 b c) b j

end Cert.KernelIdeal.KerVal

end
-- ==== Proof.RefRun.lean ====
/-
  THE REFERENCE'S RUN. The reference is a straight line of tensor operations: its @main with the three small functions
  it calls (the rectifier, the variance, the select the variance ends in) set at their call sites, seventy-four operations
  in all (the list `ops`). Every weakly fair execution runs them in order and terminates, so each buffer ends at the
  operations' fold over the launch contents.
-/
import proofs.«161294_j12670153523753_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line: the called functions' bodies unfold at their calls, and sequencing a callee's lines before
    the rest is sequencing all the lines. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every weakly fair execution of the reference terminates, each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  THE REFERENCE'S ARITHMETIC, named in stages. `rS` is the squeeze: each channel's sum over its pixels divided by the pixel
  count. `rGate` is the gate (two small products with a rectifier between them, then the logistic function). `rPost` is
  everything after the gate: the gated image y = x·e, its per-channel mean and centred variance over the whole batch (the
  variance guarded by "population size above zero", else not-a-number), the normalisation pixel by pixel, the spatial mean
  of the normalised image laid out as [32, 2, 256], and the sum of its two channel halves. `refOut` composes them.
-/
import proofs.«161294_j12670153523753_1_alg».proof.Proof.Gen.ReferenceIdeal

noncomputable section

namespace Cert.ReferenceIdeal.RefVal

open Cert.ReferenceIdeal Cert.ReferenceIdeal.Gen Idealize.ShloMosaic

variable {F : FTy → Type} [FloatOps F]

/-- The squeeze: the sum over the two pixel axes, divided by the pixel count 3136. -/
def rS (x : FVec F S32x512x56x56 .f32) : FVec F S32x512 .f32 :=
  Host.divf (Host.reduceAdd x (constant S_ .f32 0x00000000#32) reducesTo_S32x512x56x56_S32x512_d2_3 h_S_)
    (broadcastInDim S32x512 ![] bcast_S_S32x512 (constant S_ .f32 0x45440000#32))

/-- The gate from the spatial means: (s · w1ᵀ) rectified, times w2ᵀ, through the logistic function. -/
def rGate (s : FVec F S32x512 .f32) (w1 : FVec F S32x512 .f32) (w2 : FVec F S512x32 .f32) : FVec F S32x512 .f32 :=
  let v3 := transpose S512x32 [1, 0] w1 transposes_S32x512_S512x32_1_0
  let v4 := Host.dotGeneral dot_S32x512_S512x32_S32x32_1_0_0_1_n_n none s v3
  let v5 := maximumf v4 (broadcastInDim S32x32 ![] bcast_S_S32x32 (constant S_ .f32 0x00000000#32))
  let v6 := transpose S32x512 [1, 0] w2 transposes_S512x32_S32x512_1_0
  let v7 := Host.dotGeneral dot_S32x32_S32x512_S32x512_1_0_0_1_n_n none v5 v6
  let v9 := Host.exp (Host.negf v7)
  let v11 := addf (broadcastInDim S32x512 ![] bcast_S_S32x512 (constant S_ .f32 0x3F800000#32)) v9
  Host.divf (broadcastInDim S32x512 ![] bcast_S_S32x512 (constant S_ .f32 0x3F800000#32)) v11

/-- The gated image. -/
def rY (x : FVec F S32x512x56x56 .f32) (e : FVec F S32x512 .f32) : FVec F S32x512x56x56 .f32 :=
  mulf x (broadcastInDim S32x512x56x56 ![0, 1, 2, 3] bcast_S32x512x1x1_S32x512x56x56_0_1_2_3
    (broadcastInDim S32x512x1x1 ![0, 1] bcast_S32x512_S32x512x1x1_0_1 e))

/-- A channel's mean over the whole batch: the sum over image and pixel axes divided by 100352. -/
def rMean (y : FVec F S32x512x56x56 .f32) : FVec F S512 .f32 :=
  Host.divf (Host.reduceAdd y (constant S_ .f32 0x00000000#32) reducesTo_S32x512x56x56_S512_d0_2_3 h_S_)
    (broadcastInDim S512 ![] bcast_S_S512 (constant S_ .f32 0x47C40000#32))

/-- A channel's centred variance over the whole batch, as the variance function spells it: the mean recomputed at
    [1, 512, 1, 1], the deviations squared and summed, divided by (100352 − the integer 0 as a float), kept where that
    divisor is above zero and replaced by not-a-number elsewhere. -/
def rVar (y : FVec F S32x512x56x56 .f32) : FVec F S512 .f32 :=
  let a0 := Host.reduceAdd y (constant S_ .f32 0x00000000#32) reducesTo_S32x512x56x56_S512_d0_2_3 h_S_
  let a1 := broadcastInDim S1x512x1x1 ![1] bcast_S512_S1x512x1x1_1 a0
  let a2 := broadcastInDim S1x512x1x1 ![] bcast_S_S1x512x1x1 (constant S_ .f32 0x47C40000#32)
  let a3 := Host.divf a1 a2
  let a4 := broadcastInDim S32x512x56x56 ![0, 1, 2, 3] bcast_S1x512x1x1_S32x512x56x56_0_1_2_3 a3
  let a5 := subf y a4
  let a6 := mulf a5 a5
  let a7 : FVec F S_ .f32 := sitofp .f32 (constantI S_ 32 0#32)
  let a8 := subf (constant S_ .f32 0x47C40000#32) a7
  let a9 := Host.reduceAdd a6 (constant S_ .f32 0x00000000#32) reducesTo_S32x512x56x56_S512_d0_2_3 h_S_
  let a10 := broadcastInDim S512 ![] bcast_S_S512 a8
  let a11 := Host.divf a9 a10
  let a12 := cmpf .ogt a8 (constant S_ .f32 0x00000000#32)
  select (broadcastInDim S512 ![] bcast_S_S512 a12) a11
    (broadcastInDim S512 ![] bcast_S_S512 (id (constant S_ .f32 0x7FC00000#32)))

/-- Everything after the gate. -/
def rPost (x : FVec F S32x512x56x56 .f32) (e : FVec F S32x512 .f32) (w3 w4 : FVec F S512 .f32) : FVec F S32x256 .f32 :=
  let v16 := rY x e
  let v19 := rMean v16
  let v20 := rVar v16
  let v21 := broadcastInDim S1x512x1x1 ![1] bcast_S512_S1x512x1x1_1 v19
  let v22 := broadcastInDim S32x512x56x56 ![0, 1, 2, 3] bcast_S1x512x1x1_S32x512x56x56_0_1_2_3 v21
  let v23 := subf v16 v22
  let v24 := broadcastInDim S1x512x1x1 ![1] bcast_S512_S1x512x1x1_1 w3
  let v26 := addf v20 (broadcastInDim S512 ![] bcast_S_S512 (constant S_ .f32 0x3727C5AC#32))
  let v27 := Host.rsqrt v26
  let v28 := broadcastInDim S1x512x1x1 ![1] bcast_S512_S1x512x1x1_1 v27
  let v29 := mulf v24 v28
  let v30 := broadcastInDim S32x512x56x56 ![0, 1, 2, 3] bcast_S1x512x1x1_S32x512x56x56_0_1_2_3 v29
  let v31 := mulf v23 v30
  let v32 := broadcastInDim S1x512x1x1 ![1] bcast_S512_S1x512x1x1_1 w4
  let v33 := broadcastInDim S32x512x56x56 ![0, 1, 2, 3] bcast_S1x512x1x1_S32x512x56x56_0_1_2_3 v32
  let v34 := addf v31 v33
  let v35 := shapeCast S32x2x256x56x56 v34 shapeCasts_S32x512x56x56_S32x2x256x56x56
  let v36 := Host.reduceAdd v35 (constant S_ .f32 0x00000000#32) reducesTo_S32x2x256x56x56_S32x2x256_d3_4 h_S_
  let v38 := Host.divf v36 (broadcastInDim S32x2x256 ![] bcast_S_S32x2x256 (constant S_ .f32 0x45440000#32))
  Host.reduceAdd v38 (constant S_ .f32 0x00000000#32) reducesTo_S32x2x256_S32x256_d1 h_S_

/-- The reference's result from its five arguments. -/
def refOut (x : FVec F S32x512x56x56 .f32) (w1 : FVec F S32x512 .f32) (w2 : FVec F S512x32 .f32) (w3 w4 : FVec F S512 .f32) :
    FVec F S32x256 .f32 :=
  rPost x (rGate (rS x) w1 w2) w3 w4

end Cert.ReferenceIdeal.RefVal

end
-- ==== Proof.RefRunVal.lean ====
/-
  THE REFERENCE'S RUN ENDS AT ITS ARITHMETIC. Folding the seventy-four operations over any buffer contents leaves, in the
  result buffer, the staged term `refOut` of the five argument buffers' contents, and leaves the argument buffers as
  they were (no operation writes them). So every weakly fair execution of the reference ends with its result at
  `refOut` of the launch contents and its arguments unchanged.
-/
import proofs.«161294_j12670153523753_1_alg».proof.Proof.RefRun
import proofs.«161294_j12670153523753_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- The result buffer after the operations: each operation's value at its own buffer, composed. -/
theorem out_eq (V : Valuation τ sig (Elt F)) :
    after ops V (main_v39 : DevRef τ sig)
      = RefVal.refOut (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 8192 in
set_option maxHeartbeats 4000000 in
theorem arg0_eq (V : Valuation τ sig (Elt F)) : after ops V (main_arg0 : DevRef τ sig) = V (main_arg0 : DevRef τ sig) := by
  after_results_simp
set_option maxRecDepth 8192 in
set_option maxHeartbeats 4000000 in
theorem arg1_eq (V : Valuation τ sig (Elt F)) : after ops V (main_arg1 : DevRef τ sig) = V (main_arg1 : DevRef τ sig) := by
  after_results_simp
set_option maxRecDepth 8192 in
set_option maxHeartbeats 4000000 in
theorem arg2_eq (V : Valuation τ sig (Elt F)) : after ops V (main_arg2 : DevRef τ sig) = V (main_arg2 : DevRef τ sig) := by
  after_results_simp
set_option maxRecDepth 8192 in
set_option maxHeartbeats 4000000 in
theorem arg3_eq (V : Valuation τ sig (Elt F)) : after ops V (main_arg3 : DevRef τ sig) = V (main_arg3 : DevRef τ sig) := by
  after_results_simp
set_option maxRecDepth 8192 in
set_option maxHeartbeats 4000000 in
theorem arg4_eq (V : Valuation τ sig (Elt F)) : after ops V (main_arg4 : DevRef τ sig) = V (main_arg4 : DevRef τ sig) := by
  after_results_simp

/-- Every weakly fair execution of the reference terminates with its result at `refOut` of the arguments as launched, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
          = RefVal.refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v39).trans (out_eq _), (h c main_arg0).trans (arg0_eq _),
      (h c main_arg1).trans (arg1_eq _), (h c main_arg2).trans (arg2_eq _), (h c main_arg3).trans (arg3_eq _),
      (h c main_arg4).trans (arg4_eq _)⟩) (run_all m ρ)

end Cert.ReferenceIdeal.RefRun

end
-- ==== Proof.RefRead.lean ====
/-
  THE REFERENCE'S ARITHMETIC, READ AT AN INDEX.

  The reference computes with whole arrays: sums over axes, scalars and per-channel vectors repeated over larger shapes,
  elementwise arithmetic, one regrouping of the 512 channels as 2 × 256. On the extended reals every one of these is
  exact, so each stage, read at ONE index written by its coordinates, is a formula in finite sums:
    · the squeeze at (b, c) is the sum of x over the 56 × 56 pixels of channel c of image b, divided by 3136;
    · the gated image at (b, c, h, w) is x(b, c, h, w) · e(b, c);
    · a channel's batch mean at c is the sum of y over all images and pixels of channel c, divided by 100352;
    · a channel's variance at c is the sum of the squared deviations (y − mean)² over the same population, divided by
      100352: its divisor is spelt "100352 less the integer 0 as a float", which is 100352, and its guard "is that
      divisor above zero?" answers yes, so the quotient is kept and the not-a-number alternative never read;
    · the normalised image at (b, c, h, w) is (y − mean_c) · (w3_c / √(variance_c + ε)) + w4_c, the per-channel numbers
      reaching the pixel through the shapes [512] → [1, 512, 1, 1] → [32, 512, 56, 56];
    · regrouped as [32, 2, 256, 56, 56], entry (b, p, j, h, w) is the normalised image at channel 256·p + j; its sum over
      the pixels divided by 3136 is that channel's spatial mean, and the sum over p = 0, 1 adds the two halves.
  Every initial value of a sum is the literal 0 and drops out. Composed, the result at (b, j) is the reference road's
  formula, with the gate evaluated at the table of spatial means.
-/
import proofs.«161294_j12670153523753_1_alg».proof.Proof.RefTerm
import proofs.«161294_j12670153523753_1_alg».proof.Proof.Spec
import proofs.«161294_j12670153523753_1_alg».proof.Proof.Consts
import proofs.«161294_j12670153523753_1_alg».proof.Proof.LibAxisSums
import proofs.«161294_j12670153523753_1_alg».proof.Proof.LibLayout4
import proofs.«161294_j12670153523753_1_alg».proof.Proof.LibRowNetLayout
import Idealize.ShloMosaic.Lib.ValueLayout
import Idealize.ShloMosaic.Lib.Pipeline.Value

noncomputable section

open scoped BigOperators

namespace Cert.ReferenceIdeal.RefVal

open Cert.ReferenceIdeal Cert.ReferenceIdeal.Gen Idealize.ShloMosaic Idealize.ShloMosaic.ValueIdx

section Reads
variable {s : Shape} {φ : FTy}

/-- The host's quotient at an index is the extended reals' quotient of the elements. -/
theorem hdivf_apply (a b : FVec Ideal s φ) (i : s.Idx) : Host.divf a b i = Ideal.div (a i) (b i) := rfl

/-- The host's reciprocal square root at an index is the extended reals' of the element. -/
theorem hrsqrt_apply (a : FVec Ideal s φ) (i : s.Idx) : Host.rsqrt a i = Ideal.rsqrt (a i) := rfl

/-- The host's sum from a scalar constant is the exact sum from the number that constant's word encodes. -/
theorem hreduceAdd_apply {axes : List (Fin s.rank)} {t : Shape} (x : FVec Ideal s φ) (w : BitVec φ.bits)
    (h : s.ReducesTo axes t) (i : t.Idx) :
    Host.reduceAdd x (constant (F := Ideal) S_ φ w) h h_S_ i = Ideal.hostReduceAdd h x (Ideal.ofBits φ w) i := rfl

end Reads

/-- The squeeze at (b, c): channel c of image b summed over its pixels, divided by 3136. -/
theorem rS_apply (x : FVec Ideal S32x512x56x56 .f32) (b : Fin 32) (c : Fin 512) :
    rS (F := Ideal) x (ix2 b c) = Cert.SE.sMean x b c := by
  unfold rS Cert.SE.sMean Cert.SE.chanSum
  show Ideal.div (Ideal.hostReduceAdd reducesTo_S32x512x56x56_S32x512_d2_3 x (Ideal.ofBits .f32 0x00000000#32) (ix2 b c))
      (broadcastInDim S32x512 ![] bcast_S_S32x512 (constant (F := Ideal) S_ .f32 0x45440000#32) (ix2 b c)) = _
  rw [Cert.Lib.AxisSums.hostReduceAdd_abcd_23_apply, Cert.RefLayout.broadcastInDim_scalar_apply, constant_apply,
    Cert.SE.Consts.ofBits_zero, zero_add]

/-- The squeeze, as a table, is the table of spatial means. -/
theorem rS_eq (x : FVec Ideal S32x512x56x56 .f32) : rS (F := Ideal) x = Cert.SE.sArr x := by
  funext i
  obtain ⟨b, c, rfl⟩ : ∃ b c, i = ix2 b c := ⟨i 0, i 1, eq_ix2 i⟩
  exact rS_apply x b c

/-- The gated image at a pixel: the pixel times its (image, channel) gate, the gate reaching the pixel through
    [32, 512] → [32, 512, 1, 1] → [32, 512, 56, 56]. -/
theorem rY_apply (x : FVec Ideal S32x512x56x56 .f32) (e : FVec Ideal S32x512 .f32) (b : Fin 32) (c : Fin 512) (h w : Fin 56) :
    rY (F := Ideal) x e (ix4 b c h w) = x (ix4 b c h w) * e (ix2 b c) := by
  unfold rY
  rw [mulf_apply, Cert.Lib.Layout4.bcast_ab11_abcd_apply, Cert.Lib.Layout4.bcast_ab_ab11_apply]

/-- A channel's batch mean: the sum over every image and pixel of the channel, divided by 100352. -/
theorem rMean_apply (y : FVec Ideal S32x512x56x56 .f32) (c : Fin 512) :
    rMean (F := Ideal) y (ix1 c) = Ideal.div (∑ b : Fin 32, ∑ h : Fin 56, ∑ w : Fin 56, y (ix4 b c h w)) Cert.SE.k100352 := by
  unfold rMean
  show Ideal.div (Ideal.hostReduceAdd reducesTo_S32x512x56x56_S512_d0_2_3 y (Ideal.ofBits .f32 0x00000000#32) (ix1 c))
      (broadcastInDim S512 ![] bcast_S_S512 (constant (F := Ideal) S_ .f32 0x47C40000#32) (ix1 c)) = _
  rw [Cert.Lib.AxisSums.hostReduceAdd_abcd_023_apply, Cert.RefLayout.broadcastInDim_scalar_apply, constant_apply,
    Cert.SE.Consts.ofBits_zero, zero_add]

/-- The integer 0 as a float is 0, so the variance's divisor, 100352 less that, is 100352. -/
theorem divisor_eq :
    Ideal.ofBits .f32 0x47C40000#32 - FloatOps.sitofp (F := Ideal) .f32 (0#32 : BitVec 32) = Cert.SE.k100352 := by
  show Ideal.ofBits .f32 0x47C40000#32 - ((((0#32 : BitVec 32).toInt : ℝ)) : EReal) = _
  have h0 : (0#32 : BitVec 32).toInt = 0 := by decide
  rw [h0]
  simp

/-- The population size 100352 is above zero: the variance's guard answers yes. -/
theorem guard_eq : Ideal.cmp .ogt Cert.SE.k100352 (Ideal.ofBits .f32 0x00000000#32) = 1#1 := by
  show Ideal.cmp .ogt (Ideal.ofBits .f32 0x47C40000#32) (Ideal.ofBits .f32 0x00000000#32) = 1#1
  rw [Cert.SE.Consts.ofBits_100352, Cert.SE.Consts.ofBits_zero]
  unfold Ideal.cmp
  have : (0 : EReal) < ((100352 : ℝ) : EReal) := by exact_mod_cast (by norm_num : (0:ℝ) < 100352)
  simp [this]

/-- A channel's variance: the guard holds, the divisor is 100352, and the mean recomputed at [1, 512, 1, 1] and repeated
    over the batch is, at every pixel of channel c, the channel's batch mean; what is left is the sum of squared
    deviations over the channel's population divided by 100352. -/
theorem rVar_apply (y : FVec Ideal S32x512x56x56 .f32) (c : Fin 512) :
    rVar (F := Ideal) y (ix1 c)
      = Ideal.div (∑ b : Fin 32, ∑ h : Fin 56, ∑ w : Fin 56,
          (y (ix4 b c h w) - Ideal.div (∑ b : Fin 32, ∑ h : Fin 56, ∑ w : Fin 56, y (ix4 b c h w)) Cert.SE.k100352)
            * (y (ix4 b c h w) - Ideal.div (∑ b : Fin 32, ∑ h : Fin 56, ∑ w : Fin 56, y (ix4 b c h w)) Cert.SE.k100352))
          Cert.SE.k100352 := by
  unfold rVar
  dsimp only
  rw [select_apply, Cert.RefLayout.broadcastInDim_scalar_apply, cmpf_apply, subf_apply, sitofp_apply, constantI_apply,
    constant_apply, constant_apply, divisor_eq, Ideal.cmpf_def, guard_eq, select_one]
  rw [hdivf_apply, Cert.RefLayout.broadcastInDim_scalar_apply, subf_apply, sitofp_apply, constantI_apply,
    constant_apply, divisor_eq, hreduceAdd_apply, Cert.Lib.AxisSums.hostReduceAdd_abcd_023_apply,
    Cert.SE.Consts.ofBits_zero, zero_add]
  refine congrArg (fun t => Ideal.div t Cert.SE.k100352) ?_
  refine Finset.sum_congr rfl fun b _ => Finset.sum_congr rfl fun h _ => Finset.sum_congr rfl fun w _ => ?_
  rw [mulf_apply, subf_apply, Cert.Lib.Layout4.bcast_1b11_abcd_apply, hdivf_apply, Cert.Lib.Layout4.bcast_b_1b11_apply,
    Cert.RefLayout.broadcastInDim_scalar_apply, constant_apply, hreduceAdd_apply,
    Cert.Lib.AxisSums.hostReduceAdd_abcd_023_apply, Cert.SE.Consts.ofBits_zero, zero_add]

/-- Channel 256·p + j, with the product written the way the regrouping of 512 as 2 × 256 counts it. -/
theorem half_val (p : Fin 2) (j : Fin 256) : (Cert.SE.half p j).val = p.val * 256 + j.val := by
  unfold Cert.SE.half
  show 256 * p.val + j.val = p.val * 256 + j.val
  rw [Nat.mul_comm]

/-- Everything after the gate, read at (b, j): from the outside in, the sum over the two halves p, the spatial mean of
    the regrouped array at (b, p, j), and under it the normalised image at channel 256·p + j, whose mean, variance, weight
    and bias are read through the per-channel broadcasts. -/
theorem rPost_apply (x : FVec Ideal S32x512x56x56 .f32) (e : FVec Ideal S32x512 .f32) (w3 w4 : FVec Ideal S512 .f32)
    (b : Fin 32) (j : Fin 256) :
    rPost (F := Ideal) x e w3 w4 (ix2 b j) = Cert.SE.refRes x e w3 w4 b j := by
  unfold rPost
  dsimp only
  rw [hreduceAdd_apply, Cert.Lib.AxisSums.hostReduceAdd_abc_1_apply, Cert.SE.Consts.ofBits_zero, zero_add]
  unfold Cert.SE.refRes
  refine Finset.sum_congr rfl fun p _ => ?_
  rw [hdivf_apply, Cert.RefLayout.broadcastInDim_scalar_apply, constant_apply, hreduceAdd_apply,
    Cert.Lib.AxisSums.hostReduceAdd_abcde_34_apply, Cert.SE.Consts.ofBits_zero, zero_add]
  unfold Cert.SE.rPool
  refine congrArg (fun t => Ideal.div t Cert.SE.k3136) ?_
  refine Finset.sum_congr rfl fun h _ => Finset.sum_congr rfl fun w _ => ?_
  rw [Cert.Lib.Layout4.shapeCast_abcd_aefcd_apply _ _ b p j h w (Cert.SE.half p j) (half_val p j)]
  generalize Cert.SE.half p j = c
  rw [addf_apply, mulf_apply, subf_apply, Cert.Lib.Layout4.bcast_1b11_abcd_apply, Cert.Lib.Layout4.bcast_1b11_abcd_apply,
    Cert.Lib.Layout4.bcast_1b11_abcd_apply, Cert.Lib.Layout4.bcast_b_1b11_apply, Cert.Lib.Layout4.bcast_b_1b11_apply,
    mulf_apply, Cert.Lib.Layout4.bcast_b_1b11_apply, Cert.Lib.Layout4.bcast_b_1b11_apply, hrsqrt_apply, addf_apply,
    Cert.RefLayout.broadcastInDim_scalar_apply, constant_apply, rMean_apply, rVar_apply, rY_apply]
  simp only [rY_apply]
  unfold Cert.SE.rYn Cert.SE.rGam Cert.SE.rVar Cert.SE.rMu Cert.SE.rY
  rfl

/-- The reference's result at (b, j) is the reference road's formula of the image batch x, with the gate computed from x's
    spatial means. -/
theorem refOut_apply (x : FVec Ideal S32x512x56x56 .f32) (w1 : FVec Ideal S32x512 .f32) (w2 : FVec Ideal S512x32 .f32)
    (w3 w4 : FVec Ideal S512 .f32) (b : Fin 32) (j : Fin 256) :
    refOut (F := Ideal) x w1 w2 w3 w4 (ix2 b j)
      = Cert.SE.refRes x (rGate (F := Ideal) (Cert.SE.sArr x) w1 w2) w3 w4 b j := by
  unfold refOut
  rw [rS_eq]
  exact rPost_apply x _ w3 w4 b j

end Cert.ReferenceIdeal.RefVal

end
-- ==== Proof.Finite.lean ====
/-
  FROM THE PRECONDITION TO REAL ENTRIES.

  The precondition asks, of each of the five inputs, that |a| < +∞ hold at every entry a, and joins the five
  answers by "and"; it is claimed to come out as the one bit 1. Read over the extended reals, |a| is max a (−a).
  A conjunction of bits is 1 only if both of its bits are 1, so each input's answer is 1 on its own; a fold by
  "and" over all the axes of an array, started at 1, is 1 only if every entry of the array is 1; so at each entry
  the comparison max a (−a) < +∞ holds (the bit pattern 0x7F800000 denotes +∞: sign clear, exponent all ones,
  fraction zero). Of the three kinds of extended real, +∞ fails it because max (+∞) (−∞) = +∞, and −∞ fails it
  because max (−∞) (+∞) = +∞; what is left is a real number. The argument is the same for every shape, so it is
  made once, for an arbitrary shape, and then read off at each of the five inputs.
-/
import proofs.«161294_j12670153523753_1_alg».proof.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

variable [Cert.Pre_finite_inputs.Facts]

/-- The single-precision pattern with a clear sign, an all-ones exponent and a zero fraction denotes +∞. -/
theorem ofBits_inf : Ideal.ofBits .f32 0x7F800000#32 = (⊤ : EReal) := by
  simp [Ideal.ofBits, Ideal.ieee]

/-- An extended real whose absolute value max a (−a) lies strictly below +∞ is a real number: at a = +∞ the
    maximum is +∞ itself, and at a = −∞ it is −(−∞) = +∞, so neither is strictly below +∞. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- For an array of any shape: if "|entry| < +∞", folded by "and" over all the axes from the initial bit 1, comes
    out 1, then every entry is a real number. The fold is 1 only where every bit folded is 1; the bit at entry i
    compares max (x i) (−(x i)) with the scalar +∞ spread over the whole shape, whose every entry is +∞. -/
theorem real_of_all {s : Shape} {axes : List (Fin s.rank)}
    (h₁ : S_.BroadcastsInDim s (![] : Fin 0 → Fin s.rank)) (h₂ : s.ReducesTo axes S_) (hS : 0 < S_.numel)
    (x : FVec Ideal s .f32)
    (e : Host.reduce IntOp.andi
          (cmpf .olt (Host.absf x) (broadcastInDim s ![] h₁ (constant S_ .f32 0x7F800000#32)))
          (constantI S_ 1 1#1) h₂ hS ix0 = 1#1) :
    ∀ i, ∃ r : ℝ, x i = (r : EReal) := by
  intro i
  -- the shape of rank zero has exactly one index: two of its indices are functions on the empty set of axes
  haveI : Subsingleton S_.Idx := ⟨fun a b => funext fun d => d.elim0⟩
  -- every bit that was folded is 1, in particular the one at i
  have hi := Host.reduce_andi_all _ _ h₂ hS ix0 e i
  -- that bit is the comparison of max (x i) (−(x i)) with what the pattern 0x7F800000 denotes
  change Ideal.cmp .olt (max (x i) (-(x i))) (Ideal.ofBits .f32 0x7F800000#32) = 1#1 at hi
  rw [ofBits_inf] at hi
  exact real_of_abs_lt_top (x i) hi

/-- Where the precondition answers "all ones", every entry of every one of the five inputs is a real number. -/
theorem real_of_pre (x : FVec Ideal S32x512x56x56 .f32) (w1 : FVec Ideal S32x512 .f32) (w2 : FVec Ideal S512x32 .f32)
    (w3 w4 : FVec Ideal S512 .f32)
    (h : Cert.Pre_finite_inputs.fn (F := Ideal) x w1 w2 w3 w4 = fun _ => 1#1) :
    (∀ i, ∃ r : ℝ, x i = (r : EReal)) ∧ (∀ i, ∃ r : ℝ, w1 i = (r : EReal)) ∧ (∀ i, ∃ r : ℝ, w2 i = (r : EReal))
      ∧ (∀ i, ∃ r : ℝ, w3 i = (r : EReal)) ∧ (∀ i, ∃ r : ℝ, w4 i = (r : EReal)) := by
  -- the answer at its one index, written out as (((a₁ ∧ a₂) ∧ a₃) ∧ a₄) ∧ a₅, one aₖ per input
  have h0 := congrFun h ValueIdx.ix0
  dsimp only [Cert.Pre_finite_inputs.fn, Cert.Pre_finite_inputs.fn_part1] at h0
  -- a conjunction of bits is 1 only if both bits are: peel the five answers off from the outside in
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  -- each answer is a fold over all the axes of its input: the lemma for an arbitrary shape, five times
  exact ⟨real_of_all _ _ _ x e1, real_of_all _ _ _ w1 e2, real_of_all _ _ _ w2 e3,
    real_of_all _ _ _ w3 e4, real_of_all _ _ _ w4 e5⟩

end Cert.Pre_finite_inputs.Finite

end
-- ==== Proof.lean ====
/-
  A squeeze-and-excite block followed by a batch normalisation in training mode and a spatial mean, computed two ways.

  The kernel reads the image batch x : [32, 512, 56, 56] ONCE: a single pass produces, per image and channel, the sums of
  x and of x² over the channel's 56 · 56 pixels; everything else is arithmetic on [32, 512] tables. It uses that the gate e
  (a logistic function of two small products of the channel means) and the normalisation are constant over a channel's
  pixels, so that the gated image's batch mean is the mean of e·s, its batch mean square the mean of e²·q (s, q the spatial
  means of x and x²), its variance "mean square minus squared mean", and the spatial mean of the normalised image
  γ·(e·s − mean) + bias. The reference forms the gated image, takes its mean and CENTRED variance over the batch, normalises
  every pixel and averages over the pixels last. On the extended reals the two agree where the inputs are finite: every
  quantity is then a real number (the gate is a real at every argument, and the variance plus the positive offset is a
  positive real, so its inverse square root is real), and over the reals the two roads are one identity
  (Proof/Algebra.lean). The finiteness is the certificate's precondition (Proof/Finite.lean).

  The kernel program's run is the generated frame run; what it leaves in the region's two output tables is read block by
  block (Proof/KerBlocks.lean), the host arithmetic after the region is folded to one term (Proof/KerRun.lean) and read at an
  index (Proof/KerRead.lean). The reference is a straight line of tensor operations (Proof/RefOps.lean, Proof/RefRun.lean,
  Proof/RefRunVal.lean), read at an index in Proof/RefRead.lean. The two readings meet in the formulas of Proof/Spec.lean.
-/
import proofs.«161294_j12670153523753_1_alg».proof.Defs
import proofs.«161294_j12670153523753_1_alg».proof.Proof.Gen.Kernel
import proofs.«161294_j12670153523753_1_alg».proof.Proof.Gen.Kernel.Frame
import proofs.«161294_j12670153523753_1_alg».proof.Proof.Gen.KernelIdeal
import proofs.«161294_j12670153523753_1_alg».proof.Proof.Gen.KernelIdeal.Frame
import proofs.«161294_j12670153523753_1_alg».proof.Proof.Gen.ReferenceIdeal
import proofs.«161294_j12670153523753_1_alg».proof.Proof.Gen.Pre_finite_inputs
import proofs.«161294_j12670153523753_1_alg».proof.Proof.KerRun
import proofs.«161294_j12670153523753_1_alg».proof.Proof.KerBlocks
import proofs.«161294_j12670153523753_1_alg».proof.Proof.KerRead
import proofs.«161294_j12670153523753_1_alg».proof.Proof.RefRunVal
import proofs.«161294_j12670153523753_1_alg».proof.Proof.RefRead
import proofs.«161294_j12670153523753_1_alg».proof.Proof.Algebra
import proofs.«161294_j12670153523753_1_alg».proof.Proof.Finite
import Idealize.ShloMosaic.Adequacy
import Idealize.ShloMosaic.Init

noncomputable section

namespace Cert.Proof

open Idealize.ShloMosaic Idealize.ShloMosaic.ValueIdx Idealize.SL.Sem

/-- The two gates are one function: the same operations in the same order, over shape facts that say the same. -/
theorem gate_eq (s : FVec Ideal Cert.KernelIdeal.S32x512 .f32) (w1 : FVec Ideal Cert.KernelIdeal.S32x512 .f32)
    (w2 : FVec Ideal Cert.KernelIdeal.S512x32 .f32) :
    Cert.ReferenceIdeal.RefVal.rGate (F := Ideal) s w1 w2 = Cert.KernelIdeal.KerVal.kGate (F := Ideal) s w1 w2 := rfl

/-- With finite inputs the kernel program's host arithmetic of the region's two tables and the reference's arithmetic give
    one array: index by index both are the formulas of Proof/Spec.lean, which agree over the reals. -/
theorem result_eq (m : (ℓ : Loc Cert.KernelIdeal.nD Cert.KernelIdeal.τ Cert.KernelIdeal.sig) → Buf (Elt Ideal) ℓ)
    (c : Dev Cert.KernelIdeal.nD) (w1 : FVec Ideal Cert.KernelIdeal.S32x512 .f32) (w2 : FVec Ideal Cert.KernelIdeal.S512x32 .f32)
    (w3 w4 : FVec Ideal Cert.KernelIdeal.S512 .f32)
    (hx : ∀ i, ∃ r : ℝ, Cert.KernelIdeal.KerVal.xArg m c i = (r : EReal))
    (h3 : ∀ i, ∃ r : ℝ, w3 i = (r : EReal)) (h4 : ∀ i, ∃ r : ℝ, w4 i = (r : EReal)) :
    Cert.ReferenceIdeal.RefVal.refOut (F := Ideal) (Cert.KernelIdeal.KerVal.xArg m c) w1 w2 w3 w4
      = Cert.KernelIdeal.KerVal.kTail (F := Ideal) (Cert.KernelIdeal.KerVal.sumArr m c) (Cert.KernelIdeal.KerVal.sqArr m c) w1 w2 w3 w4 := by
  funext i
  obtain ⟨b, j, rfl⟩ : ∃ (b : Fin 32) (j : Fin 256), i = ix2 b j := ⟨i 0, i 1, eq_ix2 i⟩
  rw [Cert.ReferenceIdeal.RefVal.refOut_apply, gate_eq,
    Cert.KernelIdeal.KerVal.kTail_apply (Cert.KernelIdeal.KerVal.xArg m c) _ _ w1 w2 w3 w4
      (Cert.KernelIdeal.KerVal.sumArr_apply m c) (Cert.KernelIdeal.KerVal.sqArr_apply m c) b j]
  exact (Cert.SE.kerRes_eq_refRes _ _ w3 w4 hx (Cert.KernelIdeal.KerVal.kGate_real _ w1 w2) h3 h4 b j).symm

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs run; the kernel program's result is its host arithmetic of the region's two tables, the reference's its own
    arithmetic of the same arguments, and with finite inputs the two arrays are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KerVal.run_val (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨hx, -, -, h3, h4⟩ := Cert.Pre_finite_inputs.Finite.real_of_pre _ _ _ _ _ (hpre c)
  rw [(hagree c).1, (hagree c).2.1, (hagree c).2.2.1, (hagree c).2.2.2.1, (hagree c).2.2.2.2]
  exact result_eq m c _ _ _ _ hx h3 h4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
